-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x16384 : Shape := ⟨3, ![32, 128, 16384]⟩
abbrev S_ : Shape := ⟨0, ![]⟩

class Facts : Prop where
  bcast_S_S32x128x16384 : S_.BroadcastsInDim S32x128x16384 (![] : Fin 0 → Fin S32x128x16384.rank)
  reducesTo_S32x128x16384_S_d0_1_2 : S32x128x16384.ReducesTo [0, 1, 2] S_
  h_S_ : 0 < S_.numel

variable [Facts]

def fn {F : FTy → Type} [FloatOps F] (main_arg0 : FVec F S32x128x16384 .f32) : IVec S_ 1 :=
  let main_v0 : FVec F S32x128x16384 .f32 := Host.absf main_arg0
  let main_cst : FVec F S_ .f32 := constant S_ .f32 0x7F800000#32
  let main_v1 : FVec F S32x128x16384 .f32 := broadcastInDim S32x128x16384 ![] bcast_S_S32x128x16384 main_cst
  let main_v2 : IVec S32x128x16384 1 := cmpf .olt main_v0 main_v1
  let main_c : IVec S_ 1 := constantI S_ 1 1#1
  let main_v3 : IVec S_ 1 := (fun x v => Host.reduce IntOp.andi x v reducesTo_S32x128x16384_S_d0_1_2 h_S_) main_v2 main_c
  main_v3
-- ==== Kernel.lean ====
abbrev S32x128x16384 : Shape := ⟨3, ![32, 128, 16384]⟩
abbrev S4096x16384 : Shape := ⟨2, ![4096, 16384]⟩
abbrev S32x16384 : Shape := ⟨2, ![32, 16384]⟩
abbrev S32x2 : Shape := ⟨2, ![32, 2]⟩
abbrev S32x1 : Shape := ⟨2, ![32, 1]⟩
abbrev S32x1x1 : Shape := ⟨3, ![32, 1, 1]⟩
abbrev S32x1x2 : Shape := ⟨3, ![32, 1, 2]⟩
abbrev S32x4 : Shape := ⟨2, ![32, 4]⟩
abbrev S32x2x1 : Shape := ⟨3, ![32, 2, 1]⟩
abbrev S32x2x2 : Shape := ⟨3, ![32, 2, 2]⟩
abbrev S32x8 : Shape := ⟨2, ![32, 8]⟩
abbrev S32x4x1 : Shape := ⟨3, ![32, 4, 1]⟩
abbrev S32x4x2 : Shape := ⟨3, ![32, 4, 2]⟩
abbrev S32x16 : Shape := ⟨2, ![32, 16]⟩
abbrev S32x8x1 : Shape := ⟨3, ![32, 8, 1]⟩
abbrev S32x8x2 : Shape := ⟨3, ![32, 8, 2]⟩
abbrev S32x32 : Shape := ⟨2, ![32, 32]⟩
abbrev S32x16x1 : Shape := ⟨3, ![32, 16, 1]⟩
abbrev S32x16x2 : Shape := ⟨3, ![32, 16, 2]⟩
abbrev S32x64 : Shape := ⟨2, ![32, 64]⟩
abbrev S32x32x1 : Shape := ⟨3, ![32, 32, 1]⟩
abbrev S32x32x2 : Shape := ⟨3, ![32, 32, 2]⟩
abbrev S32x128 : Shape := ⟨2, ![32, 128]⟩
abbrev S32x64x1 : Shape := ⟨3, ![32, 64, 1]⟩
abbrev S32x64x2 : Shape := ⟨3, ![32, 64, 2]⟩
abbrev S32x256 : Shape := ⟨2, ![32, 256]⟩
abbrev S32x128x1 : Shape := ⟨3, ![32, 128, 1]⟩
abbrev S32x128x2 : Shape := ⟨3, ![32, 128, 2]⟩
abbrev S32x512 : Shape := ⟨2, ![32, 512]⟩
abbrev S32x256x1 : Shape := ⟨3, ![32, 256, 1]⟩
abbrev S32x256x2 : Shape := ⟨3, ![32, 256, 2]⟩
abbrev S32x1024 : Shape := ⟨2, ![32, 1024]⟩
abbrev S32x512x1 : Shape := ⟨3, ![32, 512, 1]⟩
abbrev S32x512x2 : Shape := ⟨3, ![32, 512, 2]⟩
abbrev S32x2048 : Shape := ⟨2, ![32, 2048]⟩
abbrev S32x1024x1 : Shape := ⟨3, ![32, 1024, 1]⟩
abbrev S32x1024x2 : Shape := ⟨3, ![32, 1024, 2]⟩
abbrev S32x4096 : Shape := ⟨2, ![32, 4096]⟩
abbrev S32x2048x1 : Shape := ⟨3, ![32, 2048, 1]⟩
abbrev S32x2048x2 : Shape := ⟨3, ![32, 2048, 2]⟩
abbrev S32x8192 : Shape := ⟨2, ![32, 8192]⟩
abbrev S32x4096x1 : Shape := ⟨3, ![32, 4096, 1]⟩
abbrev S32x4096x2 : Shape := ⟨3, ![32, 4096, 2]⟩
abbrev S32x8192x1 : Shape := ⟨3, ![32, 8192, 1]⟩
abbrev S32x8192x2 : Shape := ⟨3, ![32, 8192, 2]⟩

abbrev nBuf : Space → Nat
  | .hbm => 4
  | .vmem => 4
  | .smem => 0
  | _ => 0

abbrev bufTy : (tb : Table) → Fin (tcTables nBuf tb) → BufTy
  | .hbm, ⟨0, _⟩ => ⟨S32x128x16384, .f32⟩
  | .hbm, ⟨1, _⟩ => ⟨S4096x16384, .f32⟩
  | .hbm, ⟨2, _⟩ => ⟨S4096x16384, .f32⟩
  | .hbm, ⟨3, _⟩ => ⟨S32x128x16384, .f32⟩
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | _, _ => ⟨S32x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x128x16384_S4096x16384 : S32x128x16384.ShapeCasts S4096x16384
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  inb_S32x16384_S32x2_0_0 : ∀ a, (![0, 0] : Fin 2 → Nat) a + S32x2.size a ≤ S32x16384.size a
  h_S32x2 : 0 < S32x2.numel
  shapeCasts_S32x2_S32x2 : S32x2.ShapeCasts S32x2
  slices_S32x2_o0_0_S32x1 : S32x2.Slices ![0, 0] S32x1
  slices_S32x2_o0_1_S32x1 : S32x2.Slices ![0, 1] S32x1
  shapeCasts_S32x1_S32x1x1 : S32x1.ShapeCasts S32x1x1
  concatenates_S32x1x1_S32x1x1_S32x1x2_d2 : Shape.Concatenates [S32x1x1, S32x1x1] S32x1x2 2
  shapeCasts_S32x1x2_S32x2 : S32x1x2.ShapeCasts S32x2
  inb_S32x16384_S32x4_0_0 : ∀ a, (![0, 0] : Fin 2 → Nat) a + S32x4.size a ≤ S32x16384.size a
  h_S32x4 : 0 < S32x4.numel
  shapeCasts_S32x4_S32x4 : S32x4.ShapeCasts S32x4
  slices_S32x4_o0_0_S32x2 : S32x4.Slices ![0, 0] S32x2
  slices_S32x4_o0_2_S32x2 : S32x4.Slices ![0, 2] S32x2
  shapeCasts_S32x2_S32x2x1 : S32x2.ShapeCasts S32x2x1
  concatenates_S32x2x1_S32x2x1_S32x2x2_d2 : Shape.Concatenates [S32x2x1, S32x2x1] S32x2x2 2
  shapeCasts_S32x2x2_S32x4 : S32x2x2.ShapeCasts S32x4
  inb_S32x16384_S32x8_0_0 : ∀ a, (![0, 0] : Fin 2 → Nat) a + S32x8.size a ≤ S32x16384.size a
  h_S32x8 : 0 < S32x8.numel
  shapeCasts_S32x8_S32x8 : S32x8.ShapeCasts S32x8
  slices_S32x8_o0_0_S32x4 : S32x8.Slices ![0, 0] S32x4
  slices_S32x8_o0_4_S32x4 : S32x8.Slices ![0, 4] S32x4
  shapeCasts_S32x4_S32x4x1 : S32x4.ShapeCasts S32x4x1
  concatenates_S32x4x1_S32x4x1_S32x4x2_d2 : Shape.Concatenates [S32x4x1, S32x4x1] S32x4x2 2
  shapeCasts_S32x4x2_S32x8 : S32x4x2.ShapeCasts S32x8
  inb_S32x16384_S32x16_0_0 : ∀ a, (![0, 0] : Fin 2 → Nat) a + S32x16.size a ≤ S32x16384.size a
  h_S32x16 : 0 < S32x16.numel
  shapeCasts_S32x16_S32x16 : S32x16.ShapeCasts S32x16
  slices_S32x16_o0_0_S32x8 : S32x16.Slices ![0, 0] S32x8
  slices_S32x16_o0_8_S32x8 : S32x16.Slices ![0, 8] S32x8
  shapeCasts_S32x8_S32x8x1 : S32x8.ShapeCasts S32x8x1
  concatenates_S32x8x1_S32x8x1_S32x8x2_d2 : Shape.Concatenates [S32x8x1, S32x8x1] S32x8x2 2
  shapeCasts_S32x8x2_S32x16 : S32x8x2.ShapeCasts S32x16
  inb_S32x16384_S32x32_0_0 : ∀ a, (![0, 0] : Fin 2 → Nat) a + S32x32.size a ≤ S32x16384.size a
  h_S32x32 : 0 < S32x32.numel
  shapeCasts_S32x32_S32x32 : S32x32.ShapeCasts S32x32
  slices_S32x32_o0_0_S32x16 : S32x32.Slices ![0, 0] S32x16
  slices_S32x32_o0_16_S32x16 : S32x32.Slices ![0, 16] S32x16
  shapeCasts_S32x16_S32x16x1 : S32x16.ShapeCasts S32x16x1
  concatenates_S32x16x1_S32x16x1_S32x16x2_d2 : Shape.Concatenates [S32x16x1, S32x16x1] S32x16x2 2
  shapeCasts_S32x16x2_S32x32 : S32x16x2.ShapeCasts S32x32
  inb_S32x16384_S32x64_0_0 : ∀ a, (![0, 0] : Fin 2 → Nat) a + S32x64.size a ≤ S32x16384.size a
  h_S32x64 : 0 < S32x64.numel
  shapeCasts_S32x64_S32x64 : S32x64.ShapeCasts S32x64
  slices_S32x64_o0_0_S32x32 : S32x64.Slices ![0, 0] S32x32
  slices_S32x64_o0_32_S32x32 : S32x64.Slices ![0, 32] S32x32
  shapeCasts_S32x32_S32x32x1 : S32x32.ShapeCasts S32x32x1
  concatenates_S32x32x1_S32x32x1_S32x32x2_d2 : Shape.Concatenates [S32x32x1, S32x32x1] S32x32x2 2
  shapeCasts_S32x32x2_S32x64 : S32x32x2.ShapeCasts S32x64
  inb_S32x16384_S32x128_0_0 : ∀ a, (![0, 0] : Fin 2 → Nat) a + S32x128.size a ≤ S32x16384.size a
  h_S32x128 : 0 < S32x128.numel
  shapeCasts_S32x128_S32x128 : S32x128.ShapeCasts S32x128
  slices_S32x128_o0_0_S32x64 : S32x128.Slices ![0, 0] S32x64
  slices_S32x128_o0_64_S32x64 : S32x128.Slices ![0, 64] S32x64
  shapeCasts_S32x64_S32x64x1 : S32x64.ShapeCasts S32x64x1
  concatenates_S32x64x1_S32x64x1_S32x64x2_d2 : Shape.Concatenates [S32x64x1, S32x64x1] S32x64x2 2
  shapeCasts_S32x64x2_S32x128 : S32x64x2.ShapeCasts S32x128
  inb_S32x16384_S32x256_0_0 : ∀ a, (![0, 0] : Fin 2 → Nat) a + S32x256.size a ≤ S32x16384.size a
  h_S32x256 : 0 < S32x256.numel
  shapeCasts_S32x256_S32x256 : S32x256.ShapeCasts S32x256
  slices_S32x256_o0_0_S32x128 : S32x256.Slices ![0, 0] S32x128
  slices_S32x256_o0_128_S32x128 : S32x256.Slices ![0, 128] S32x128
  shapeCasts_S32x128_S32x128x1 : S32x128.ShapeCasts S32x128x1
  concatenates_S32x128x1_S32x128x1_S32x128x2_d2 : Shape.Concatenates [S32x128x1, S32x128x1] S32x128x2 2
  shapeCasts_S32x128x2_S32x256 : S32x128x2.ShapeCasts S32x256
  inb_S32x16384_S32x512_0_0 : ∀ a, (![0, 0] : Fin 2 → Nat) a + S32x512.size a ≤ S32x16384.size a
  h_S32x512 : 0 < S32x512.numel
  shapeCasts_S32x512_S32x512 : S32x512.ShapeCasts S32x512
  slices_S32x512_o0_0_S32x256 : S32x512.Slices ![0, 0] S32x256
  slices_S32x512_o0_256_S32x256 : S32x512.Slices ![0, 256] S32x256
  shapeCasts_S32x256_S32x256x1 : S32x256.ShapeCasts S32x256x1
  concatenates_S32x256x1_S32x256x1_S32x256x2_d2 : Shape.Concatenates [S32x256x1, S32x256x1] S32x256x2 2
  shapeCasts_S32x256x2_S32x512 : S32x256x2.ShapeCasts S32x512
  inb_S32x16384_S32x1024_0_0 : ∀ a, (![0, 0] : Fin 2 → Nat) a + S32x1024.size a ≤ S32x16384.size a
  h_S32x1024 : 0 < S32x1024.numel
  shapeCasts_S32x1024_S32x1024 : S32x1024.ShapeCasts S32x1024
  slices_S32x1024_o0_0_S32x512 : S32x1024.Slices ![0, 0] S32x512
  slices_S32x1024_o0_512_S32x512 : S32x1024.Slices ![0, 512] S32x512
  shapeCasts_S32x512_S32x512x1 : S32x512.ShapeCasts S32x512x1
  concatenates_S32x512x1_S32x512x1_S32x512x2_d2 : Shape.Concatenates [S32x512x1, S32x512x1] S32x512x2 2
  shapeCasts_S32x512x2_S32x1024 : S32x512x2.ShapeCasts S32x1024
  inb_S32x16384_S32x2048_0_0 : ∀ a, (![0, 0] : Fin 2 → Nat) a + S32x2048.size a ≤ S32x16384.size a
  h_S32x2048 : 0 < S32x2048.numel
  shapeCasts_S32x2048_S32x2048 : S32x2048.ShapeCasts S32x2048
  slices_S32x2048_o0_0_S32x1024 : S32x2048.Slices ![0, 0] S32x1024
  slices_S32x2048_o0_1024_S32x1024 : S32x2048.Slices ![0, 1024] S32x1024
  shapeCasts_S32x1024_S32x1024x1 : S32x1024.ShapeCasts S32x1024x1
  concatenates_S32x1024x1_S32x1024x1_S32x1024x2_d2 : Shape.Concatenates [S32x1024x1, S32x1024x1] S32x1024x2 2
  shapeCasts_S32x1024x2_S32x2048 : S32x1024x2.ShapeCasts S32x2048
  inb_S32x16384_S32x4096_0_0 : ∀ a, (![0, 0] : Fin 2 → Nat) a + S32x4096.size a ≤ S32x16384.size a
  h_S32x4096 : 0 < S32x4096.numel
  shapeCasts_S32x4096_S32x4096 : S32x4096.ShapeCasts S32x4096
  slices_S32x4096_o0_0_S32x2048 : S32x4096.Slices ![0, 0] S32x2048
  slices_S32x4096_o0_2048_S32x2048 : S32x4096.Slices ![0, 2048] S32x2048
  shapeCasts_S32x2048_S32x2048x1 : S32x2048.ShapeCasts S32x2048x1
  concatenates_S32x2048x1_S32x2048x1_S32x2048x2_d2 : Shape.Concatenates [S32x2048x1, S32x2048x1] S32x2048x2 2
  shapeCasts_S32x2048x2_S32x4096 : S32x2048x2.ShapeCasts S32x4096
  inb_S32x16384_S32x8192_0_0 : ∀ a, (![0, 0] : Fin 2 → Nat) a + S32x8192.size a ≤ S32x16384.size a
  h_S32x8192 : 0 < S32x8192.numel
  shapeCasts_S32x8192_S32x8192 : S32x8192.ShapeCasts S32x8192
  slices_S32x8192_o0_0_S32x4096 : S32x8192.Slices ![0, 0] S32x4096
  slices_S32x8192_o0_4096_S32x4096 : S32x8192.Slices ![0, 4096] S32x4096
  shapeCasts_S32x4096_S32x4096x1 : S32x4096.ShapeCasts S32x4096x1
  concatenates_S32x4096x1_S32x4096x1_S32x4096x2_d2 : Shape.Concatenates [S32x4096x1, S32x4096x1] S32x4096x2 2
  shapeCasts_S32x4096x2_S32x8192 : S32x4096x2.ShapeCasts S32x8192
  slices_S32x16384_o0_0_S32x8192 : S32x16384.Slices ![0, 0] S32x8192
  slices_S32x16384_o0_8192_S32x8192 : S32x16384.Slices ![0, 8192] S32x8192
  shapeCasts_S32x8192_S32x8192x1 : S32x8192.ShapeCasts S32x8192x1
  concatenates_S32x8192x1_S32x8192x1_S32x8192x2_d2 : Shape.Concatenates [S32x8192x1, S32x8192x1] S32x8192x2 2
  shapeCasts_S32x8192x2_S32x16384 : S32x8192x2.ShapeCasts S32x16384
  shapeCasts_S4096x16384_S32x128x16384 : S4096x16384.ShapeCasts S32x128x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S4096x16384.size a
  hwx0_0 : ∀ i : grid0.Coords, EltTy.bits .f32 = 32 ∨ (Rect.block (s := S4096x16384) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S4096x16384.size a
  hwx0_1 : ∀ i : grid0.Coords, EltTy.bits .f32 = 32 ∨ (Rect.block (s := S4096x16384) S32x16384.size (cc0_transform_1 i) (hinb0_1 i)).WholeWords (EltTy.packing .f32)

variable [Facts₀]

abbrev win0_0 : Pipeline.Window sig grid0 :=
  Pipeline.Window.ofSpec (Memref.whole main_v0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x128x16384 : Shape := ⟨3, ![32, 128, 16384]⟩
abbrev S32x128x2 : Shape := ⟨3, ![32, 128, 2]⟩
abbrev S32x128x1 : Shape := ⟨3, ![32, 128, 1]⟩
abbrev S_ : Shape := ⟨0, ![]⟩
abbrev S32x128x1x1 : Shape := ⟨4, ![32, 128, 1, 1]⟩
abbrev S32x128x1x2 : Shape := ⟨4, ![32, 128, 1, 2]⟩
abbrev S32x128x16382 : Shape := ⟨3, ![32, 128, 16382]⟩
abbrev S32x128x4 : Shape := ⟨3, ![32, 128, 4]⟩
abbrev S32x128x2x1 : Shape := ⟨4, ![32, 128, 2, 1]⟩
abbrev S32x128x2x2 : Shape := ⟨4, ![32, 128, 2, 2]⟩
abbrev S32x128x16380 : Shape := ⟨3, ![32, 128, 16380]⟩
abbrev S32x128x8 : Shape := ⟨3, ![32, 128, 8]⟩
abbrev S32x128x4x1 : Shape := ⟨4, ![32, 128, 4, 1]⟩
abbrev S32x128x4x2 : Shape := ⟨4, ![32, 128, 4, 2]⟩
abbrev S32x128x16376 : Shape := ⟨3, ![32, 128, 16376]⟩
abbrev S32x128x16 : Shape := ⟨3, ![32, 128, 16]⟩
abbrev S32x128x8x1 : Shape := ⟨4, ![32, 128, 8, 1]⟩
abbrev S32x128x8x2 : Shape := ⟨4, ![32, 128, 8, 2]⟩
abbrev S32x128x16368 : Shape := ⟨3, ![32, 128, 16368]⟩
abbrev S32x128x32 : Shape := ⟨3, ![32, 128, 32]⟩
abbrev S32x128x16x1 : Shape := ⟨4, ![32, 128, 16, 1]⟩
abbrev S32x128x16x2 : Shape := ⟨4, ![32, 128, 16, 2]⟩
abbrev S32x128x16352 : Shape := ⟨3, ![32, 128, 16352]⟩
abbrev S32x128x64 : Shape := ⟨3, ![32, 128, 64]⟩
abbrev S32x128x32x1 : Shape := ⟨4, ![32, 128, 32, 1]⟩
abbrev S32x128x32x2 : Shape := ⟨4, ![32, 128, 32, 2]⟩
abbrev S32x128x16320 : Shape := ⟨3, ![32, 128, 16320]⟩
abbrev S32x128x128 : Shape := ⟨3, ![32, 128, 128]⟩
abbrev S32x128x64x1 : Shape := ⟨4, ![32, 128, 64, 1]⟩
abbrev S32x128x64x2 : Shape := ⟨4, ![32, 128, 64, 2]⟩
abbrev S32x128x16256 : Shape := ⟨3, ![32, 128, 16256]⟩
abbrev S32x128x256 : Shape := ⟨3, ![32, 128, 256]⟩
abbrev S32x128x128x1 : Shape := ⟨4, ![32, 128, 128, 1]⟩
abbrev S32x128x128x2 : Shape := ⟨4, ![32, 128, 128, 2]⟩
abbrev S32x128x16128 : Shape := ⟨3, ![32, 128, 16128]⟩
abbrev S32x128x512 : Shape := ⟨3, ![32, 128, 512]⟩
abbrev S32x128x256x1 : Shape := ⟨4, ![32, 128, 256, 1]⟩
abbrev S32x128x256x2 : Shape := ⟨4, ![32, 128, 256, 2]⟩
abbrev S32x128x15872 : Shape := ⟨3, ![32, 128, 15872]⟩
abbrev S32x128x1024 : Shape := ⟨3, ![32, 128, 1024]⟩
abbrev S32x128x512x1 : Shape := ⟨4, ![32, 128, 512, 1]⟩
abbrev S32x128x512x2 : Shape := ⟨4, ![32, 128, 512, 2]⟩
abbrev S32x128x15360 : Shape := ⟨3, ![32, 128, 15360]⟩
abbrev S32x128x2048 : Shape := ⟨3, ![32, 128, 2048]⟩
abbrev S32x128x1024x1 : Shape := ⟨4, ![32, 128, 1024, 1]⟩
abbrev S32x128x1024x2 : Shape := ⟨4, ![32, 128, 1024, 2]⟩
abbrev S32x128x14336 : Shape := ⟨3, ![32, 128, 14336]⟩
abbrev S32x128x4096 : Shape := ⟨3, ![32, 128, 4096]⟩
abbrev S32x128x2048x1 : Shape := ⟨4, ![32, 128, 2048, 1]⟩
abbrev S32x128x2048x2 : Shape := ⟨4, ![32, 128, 2048, 2]⟩
abbrev S32x128x12288 : Shape := ⟨3, ![32, 128, 12288]⟩
abbrev S32x128x8192 : Shape := ⟨3, ![32, 128, 8192]⟩
abbrev S32x128x4096x1 : Shape := ⟨4, ![32, 128, 4096, 1]⟩
abbrev S32x128x4096x2 : Shape := ⟨4, ![32, 128, 4096, 2]⟩
abbrev S32x128x8192x1 : Shape := ⟨4, ![32, 128, 8192, 1]⟩
abbrev S32x128x8192x2 : Shape := ⟨4, ![32, 128, 8192, 2]⟩
abbrev S32x128x0 : Shape := ⟨3, ![32, 128, 0]⟩

abbrev nBuf : Space → Nat
  | .hbm => 238
  | .vmem => 0
  | .smem => 0
  | _ => 0

abbrev hbmTy0_0 (i : Nat) : BufTy := match i % 128 with
  | 0 => ⟨S32x128x16384, .f32⟩
  | 1 => ⟨S32x128x2, .f32⟩
  | 2 => ⟨S32x128x1, .f32⟩
  | 3 => ⟨S32x128x1, .f32⟩
  | 4 => ⟨S32x128x1, .f32⟩
  | 5 => ⟨S_, .f32⟩
  | 6 => ⟨S32x128x1, .f32⟩
  | 7 => ⟨S32x128x1, .f32⟩
  | 8 => ⟨S32x128x1, .f32⟩
  | 9 => ⟨S_, .f32⟩
  | 10 => ⟨S32x128x1, .f32⟩
  | 11 => ⟨S32x128x1, .f32⟩
  | 12 => ⟨S32x128x1x1, .f32⟩
  | 13 => ⟨S32x128x1x1, .f32⟩
  | 14 => ⟨S32x128x1x2, .f32⟩
  | 15 => ⟨S32x128x2, .f32⟩
  | 16 => ⟨S32x128x16382, .f32⟩
  | 17 => ⟨S32x128x16384, .f32⟩
  | 18 => ⟨S32x128x4, .f32⟩
  | 19 => ⟨S32x128x2, .f32⟩
  | 20 => ⟨S32x128x2, .f32⟩
  | 21 => ⟨S32x128x2, .f32⟩
  | 22 => ⟨S_, .f32⟩
  | 23 => ⟨S32x128x2, .f32⟩
  | 24 => ⟨S32x128x2, .f32⟩
  | 25 => ⟨S32x128x2, .f32⟩
  | 26 => ⟨S_, .f32⟩
  | 27 => ⟨S32x128x2, .f32⟩
  | 28 => ⟨S32x128x2, .f32⟩
  | 29 => ⟨S32x128x2x1, .f32⟩
  | 30 => ⟨S32x128x2x1, .f32⟩
  | 31 => ⟨S32x128x2x2, .f32⟩
  | 32 => ⟨S32x128x4, .f32⟩
  | 33 => ⟨S32x128x16380, .f32⟩
  | 34 => ⟨S32x128x16384, .f32⟩
  | 35 => ⟨S32x128x8, .f32⟩
  | 36 => ⟨S32x128x4, .f32⟩
  | 37 => ⟨S32x128x4, .f32⟩
  | 38 => ⟨S32x128x4, .f32⟩
  | 39 => ⟨S_, .f32⟩
  | 40 => ⟨S32x128x4, .f32⟩
  | 41 => ⟨S32x128x4, .f32⟩
  | 42 => ⟨S32x128x4, .f32⟩
  | 43 => ⟨S_, .f32⟩
  | 44 => ⟨S32x128x4, .f32⟩
  | 45 => ⟨S32x128x4, .f32⟩
  | 46 => ⟨S32x128x4x1, .f32⟩
  | 47 => ⟨S32x128x4x1, .f32⟩
  | 48 => ⟨S32x128x4x2, .f32⟩
  | 49 => ⟨S32x128x8, .f32⟩
  | 50 => ⟨S32x128x16376, .f32⟩
  | 51 => ⟨S32x128x16384, .f32⟩
  | 52 => ⟨S32x128x16, .f32⟩
  | 53 => ⟨S32x128x8, .f32⟩
  | 54 => ⟨S32x128x8, .f32⟩
  | 55 => ⟨S32x128x8, .f32⟩
  | 56 => ⟨S_, .f32⟩
  | 57 => ⟨S32x128x8, .f32⟩
  | 58 => ⟨S32x128x8, .f32⟩
  | 59 => ⟨S32x128x8, .f32⟩
  | 60 => ⟨S_, .f32⟩
  | 61 => ⟨S32x128x8, .f32⟩
  | 62 => ⟨S32x128x8, .f32⟩
  | 63 => ⟨S32x128x8x1, .f32⟩
  | 64 => ⟨S32x128x8x1, .f32⟩
  | 65 => ⟨S32x128x8x2, .f32⟩
  | 66 => ⟨S32x128x16, .f32⟩
  | 67 => ⟨S32x128x16368, .f32⟩
  | 68 => ⟨S32x128x16384, .f32⟩
  | 69 => ⟨S32x128x32, .f32⟩
  | 70 => ⟨S32x128x16, .f32⟩
  | 71 => ⟨S32x128x16, .f32⟩
  | 72 => ⟨S32x128x16, .f32⟩
  | 73 => ⟨S_, .f32⟩
  | 74 => ⟨S32x128x16, .f32⟩
  | 75 => ⟨S32x128x16, .f32⟩
  | 76 => ⟨S32x128x16, .f32⟩
  | 77 => ⟨S_, .f32⟩
  | 78 => ⟨S32x128x16, .f32⟩
  | 79 => ⟨S32x128x16, .f32⟩
  | 80 => ⟨S32x128x16x1, .f32⟩
  | 81 => ⟨S32x128x16x1, .f32⟩
  | 82 => ⟨S32x128x16x2, .f32⟩
  | 83 => ⟨S32x128x32, .f32⟩
  | 84 => ⟨S32x128x16352, .f32⟩
  | 85 => ⟨S32x128x16384, .f32⟩
  | 86 => ⟨S32x128x64, .f32⟩
  | 87 => ⟨S32x128x32, .f32⟩
  | 88 => ⟨S32x128x32, .f32⟩
  | 89 => ⟨S32x128x32, .f32⟩
  | 90 => ⟨S_, .f32⟩
  | 91 => ⟨S32x128x32, .f32⟩
  | 92 => ⟨S32x128x32, .f32⟩
  | 93 => ⟨S32x128x32, .f32⟩
  | 94 => ⟨S_, .f32⟩
  | 95 => ⟨S32x128x32, .f32⟩
  | 96 => ⟨S32x128x32, .f32⟩
  | 97 => ⟨S32x128x32x1, .f32⟩
  | 98 => ⟨S32x128x32x1, .f32⟩
  | 99 => ⟨S32x128x32x2, .f32⟩
  | 100 => ⟨S32x128x64, .f32⟩
  | 101 => ⟨S32x128x16320, .f32⟩
  | 102 => ⟨S32x128x16384, .f32⟩
  | 103 => ⟨S32x128x128, .f32⟩
  | 104 => ⟨S32x128x64, .f32⟩
  | 105 => ⟨S32x128x64, .f32⟩
  | 106 => ⟨S32x128x64, .f32⟩
  | 107 => ⟨S_, .f32⟩
  | 108 => ⟨S32x128x64, .f32⟩
  | 109 => ⟨S32x128x64, .f32⟩
  | 110 => ⟨S32x128x64, .f32⟩
  | 111 => ⟨S_, .f32⟩
  | 112 => ⟨S32x128x64, .f32⟩
  | 113 => ⟨S32x128x64, .f32⟩
  | 114 => ⟨S32x128x64x1, .f32⟩
  | 115 => ⟨S32x128x64x1, .f32⟩
  | 116 => ⟨S32x128x64x2, .f32⟩
  | 117 => ⟨S32x128x128, .f32⟩
  | 118 => ⟨S32x128x16256, .f32⟩
  | 119 => ⟨S32x128x16384, .f32⟩
  | 120 => ⟨S32x128x256, .f32⟩
  | 121 => ⟨S32x128x128, .f32⟩
  | 122 => ⟨S32x128x128, .f32⟩
  | 123 => ⟨S32x128x128, .f32⟩
  | 124 => ⟨S_, .f32⟩
  | 125 => ⟨S32x128x128, .f32⟩
  | 126 => ⟨S32x128x128, .f32⟩
  | 127 => ⟨S32x128x128, .f32⟩
  | _ => ⟨S32x128x16384, .f32⟩

abbrev hbmTy0_1 (i : Nat) : BufTy := match i % 128 with
  | 0 => ⟨S_, .f32⟩
  | 1 => ⟨S32x128x128, .f32⟩
  | 2 => ⟨S32x128x128, .f32⟩
  | 3 => ⟨S32x128x128x1, .f32⟩
  | 4 => ⟨S32x128x128x1, .f32⟩
  | 5 => ⟨S32x128x128x2, .f32⟩
  | 6 => ⟨S32x128x256, .f32⟩
  | 7 => ⟨S32x128x16128, .f32⟩
  | 8 => ⟨S32x128x16384, .f32⟩
  | 9 => ⟨S32x128x512, .f32⟩
  | 10 => ⟨S32x128x256, .f32⟩
  | 11 => ⟨S32x128x256, .f32⟩
  | 12 => ⟨S32x128x256, .f32⟩
  | 13 => ⟨S_, .f32⟩
  | 14 => ⟨S32x128x256, .f32⟩
  | 15 => ⟨S32x128x256, .f32⟩
  | 16 => ⟨S32x128x256, .f32⟩
  | 17 => ⟨S_, .f32⟩
  | 18 => ⟨S32x128x256, .f32⟩
  | 19 => ⟨S32x128x256, .f32⟩
  | 20 => ⟨S32x128x256x1, .f32⟩
  | 21 => ⟨S32x128x256x1, .f32⟩
  | 22 => ⟨S32x128x256x2, .f32⟩
  | 23 => ⟨S32x128x512, .f32⟩
  | 24 => ⟨S32x128x15872, .f32⟩
  | 25 => ⟨S32x128x16384, .f32⟩
  | 26 => ⟨S32x128x1024, .f32⟩
  | 27 => ⟨S32x128x512, .f32⟩
  | 28 => ⟨S32x128x512, .f32⟩
  | 29 => ⟨S32x128x512, .f32⟩
  | 30 => ⟨S_, .f32⟩
  | 31 => ⟨S32x128x512, .f32⟩
  | 32 => ⟨S32x128x512, .f32⟩
  | 33 => ⟨S32x128x512, .f32⟩
  | 34 => ⟨S_, .f32⟩
  | 35 => ⟨S32x128x512, .f32⟩
  | 36 => ⟨S32x128x512, .f32⟩
  | 37 => ⟨S32x128x512x1, .f32⟩
  | 38 => ⟨S32x128x512x1, .f32⟩
  | 39 => ⟨S32x128x512x2, .f32⟩
  | 40 => ⟨S32x128x1024, .f32⟩
  | 41 => ⟨S32x128x15360, .f32⟩
  | 42 => ⟨S32x128x16384, .f32⟩
  | 43 => ⟨S32x128x2048, .f32⟩
  | 44 => ⟨S32x128x1024, .f32⟩
  | 45 => ⟨S32x128x1024, .f32⟩
  | 46 => ⟨S32x128x1024, .f32⟩
  | 47 => ⟨S_, .f32⟩
  | 48 => ⟨S32x128x1024, .f32⟩
  | 49 => ⟨S32x128x1024, .f32⟩
  | 50 => ⟨S32x128x1024, .f32⟩
  | 51 => ⟨S_, .f32⟩
  | 52 => ⟨S32x128x1024, .f32⟩
  | 53 => ⟨S32x128x1024, .f32⟩
  | 54 => ⟨S32x128x1024x1, .f32⟩
  | 55 => ⟨S32x128x1024x1, .f32⟩
  | 56 => ⟨S32x128x1024x2, .f32⟩
  | 57 => ⟨S32x128x2048, .f32⟩
  | 58 => ⟨S32x128x14336, .f32⟩
  | 59 => ⟨S32x128x16384, .f32⟩
  | 60 => ⟨S32x128x4096, .f32⟩
  | 61 => ⟨S32x128x2048, .f32⟩
  | 62 => ⟨S32x128x2048, .f32⟩
  | 63 => ⟨S32x128x2048, .f32⟩
  | 64 => ⟨S_, .f32⟩
  | 65 => ⟨S32x128x2048, .f32⟩
  | 66 => ⟨S32x128x2048, .f32⟩
  | 67 => ⟨S32x128x2048, .f32⟩
  | 68 => ⟨S_, .f32⟩
  | 69 => ⟨S32x128x2048, .f32⟩
  | 70 => ⟨S32x128x2048, .f32⟩
  | 71 => ⟨S32x128x2048x1, .f32⟩
  | 72 => ⟨S32x128x2048x1, .f32⟩
  | 73 => ⟨S32x128x2048x2, .f32⟩
  | 74 => ⟨S32x128x4096, .f32⟩
  | 75 => ⟨S32x128x12288, .f32⟩
  | 76 => ⟨S32x128x16384, .f32⟩
  | 77 => ⟨S32x128x8192, .f32⟩
  | 78 => ⟨S32x128x4096, .f32⟩
  | 79 => ⟨S32x128x4096, .f32⟩
  | 80 => ⟨S32x128x4096, .f32⟩
  | 81 => ⟨S_, .f32⟩
  | 82 => ⟨S32x128x4096, .f32⟩
  | 83 => ⟨S32x128x4096, .f32⟩
  | 84 => ⟨S32x128x4096, .f32⟩
  | 85 => ⟨S_, .f32⟩
  | 86 => ⟨S32x128x4096, .f32⟩
  | 87 => ⟨S32x128x4096, .f32⟩
  | 88 => ⟨S32x128x4096x1, .f32⟩
  | 89 => ⟨S32x128x4096x1, .f32⟩
  | 90 => ⟨S32x128x4096x2, .f32⟩
  | 91 => ⟨S32x128x8192, .f32⟩
  | 92 => ⟨S32x128x8192, .f32⟩
  | 93 => ⟨S32x128x16384, .f32⟩
  | 94 => ⟨S32x128x8192, .f32⟩
  | 95 => ⟨S32x128x8192, .f32⟩
  | 96 => ⟨S32x128x8192, .f32⟩
  | 97 => ⟨S_, .f32⟩
  | 98 => ⟨S32x128x8192, .f32⟩
  | 99 => ⟨S32x128x8192, .f32⟩
  | 100 => ⟨S32x128x8192, .f32⟩
  | 101 => ⟨S_, .f32⟩
  | 102 => ⟨S32x128x8192, .f32⟩
  | 103 => ⟨S32x128x8192, .f32⟩
  | 104 => ⟨S32x128x8192x1, .f32⟩
  | 105 => ⟨S32x128x8192x1, .f32⟩
  | 106 => ⟨S32x128x8192x2, .f32⟩
  | 107 => ⟨S32x128x16384, .f32⟩
  | 108 => ⟨S32x128x0, .f32⟩
  | 109 => ⟨S32x128x16384, .f32⟩
  | _ => ⟨S32x128x16384, .f32⟩

abbrev hbmTy (i : Nat) : BufTy := match i / 128 with
  | 0 => hbmTy0_0 i
  | 1 => hbmTy0_1 i
  | _ => ⟨S32x128x16384, .f32⟩

abbrev bufTy : (tb : Table) → Fin (tcTables nBuf tb) → BufTy
  | .hbm, ⟨i, _⟩ => hbmTy i
  | _, _ => ⟨S32x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_3 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_4 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_5 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_6 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_7 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_8 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_9 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_cst_10 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_11 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_12 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst_13 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_14 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_cst_15 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_cst_16 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_cst_17 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_cst_18 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_cst_19 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_cst_20 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_cst_21 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_cst_22 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_cst_23 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_cst_24 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_cst_25 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_cst_26 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩

abbrev nD : Nat := 1
abbrev τ : Topo := Topo.v7x

variable {F : FTy → Type} [FloatOps F]

class Facts₀ : Prop where
  slices_S32x128x16384_S32x128x2_0_0_0 : S32x128x16384.Slices ![0, 0, 0] S32x128x2
  slices_S32x128x2_S32x128x1_0_0_0 : S32x128x2.Slices ![0, 0, 0] S32x128x1
  slices_S32x128x2_S32x128x1_0_0_1 : S32x128x2.Slices ![0, 0, 1] S32x128x1
  bcast_S_S32x128x1 : S_.BroadcastsInDim S32x128x1 (![] : Fin 0 → Fin S32x128x1.rank)
  bcast_S32x128x1_S32x128x1x1_0_1_2 : S32x128x1.BroadcastsInDim S32x128x1x1 (![0, 1, 2] : Fin 3 → Fin S32x128x1x1.rank)
  concatenates_S32x128x1x1_S32x128x1x1_S32x128x1x2_d3 : Shape.Concatenates [S32x128x1x1, S32x128x1x1] S32x128x1x2 3
  shapeCasts_S32x128x1x2_S32x128x2 : S32x128x1x2.ShapeCasts S32x128x2
  slices_S32x128x16384_S32x128x16382_0_0_2 : S32x128x16384.Slices ![0, 0, 2] S32x128x16382
  concatenates_S32x128x2_S32x128x16382_S32x128x16384_d2 : Shape.Concatenates [S32x128x2, S32x128x16382] S32x128x16384 2
  slices_S32x128x16384_S32x128x4_0_0_0 : S32x128x16384.Slices ![0, 0, 0] S32x128x4
  slices_S32x128x4_S32x128x2_0_0_0 : S32x128x4.Slices ![0, 0, 0] S32x128x2
  slices_S32x128x4_S32x128x2_0_0_2 : S32x128x4.Slices ![0, 0, 2] S32x128x2
  bcast_S_S32x128x2 : S_.BroadcastsInDim S32x128x2 (![] : Fin 0 → Fin S32x128x2.rank)
  bcast_S32x128x2_S32x128x2x1_0_1_2 : S32x128x2.BroadcastsInDim S32x128x2x1 (![0, 1, 2] : Fin 3 → Fin S32x128x2x1.rank)
  concatenates_S32x128x2x1_S32x128x2x1_S32x128x2x2_d3 : Shape.Concatenates [S32x128x2x1, S32x128x2x1] S32x128x2x2 3
  shapeCasts_S32x128x2x2_S32x128x4 : S32x128x2x2.ShapeCasts S32x128x4
  slices_S32x128x16384_S32x128x16380_0_0_4 : S32x128x16384.Slices ![0, 0, 4] S32x128x16380
  concatenates_S32x128x4_S32x128x16380_S32x128x16384_d2 : Shape.Concatenates [S32x128x4, S32x128x16380] S32x128x16384 2
  slices_S32x128x16384_S32x128x8_0_0_0 : S32x128x16384.Slices ![0, 0, 0] S32x128x8
  slices_S32x128x8_S32x128x4_0_0_0 : S32x128x8.Slices ![0, 0, 0] S32x128x4
  slices_S32x128x8_S32x128x4_0_0_4 : S32x128x8.Slices ![0, 0, 4] S32x128x4
  bcast_S_S32x128x4 : S_.BroadcastsInDim S32x128x4 (![] : Fin 0 → Fin S32x128x4.rank)
  bcast_S32x128x4_S32x128x4x1_0_1_2 : S32x128x4.BroadcastsInDim S32x128x4x1 (![0, 1, 2] : Fin 3 → Fin S32x128x4x1.rank)
  concatenates_S32x128x4x1_S32x128x4x1_S32x128x4x2_d3 : Shape.Concatenates [S32x128x4x1, S32x128x4x1] S32x128x4x2 3
  shapeCasts_S32x128x4x2_S32x128x8 : S32x128x4x2.ShapeCasts S32x128x8
  slices_S32x128x16384_S32x128x16376_0_0_8 : S32x128x16384.Slices ![0, 0, 8] S32x128x16376
  concatenates_S32x128x8_S32x128x16376_S32x128x16384_d2 : Shape.Concatenates [S32x128x8, S32x128x16376] S32x128x16384 2
  slices_S32x128x16384_S32x128x16_0_0_0 : S32x128x16384.Slices ![0, 0, 0] S32x128x16
  slices_S32x128x16_S32x128x8_0_0_0 : S32x128x16.Slices ![0, 0, 0] S32x128x8
  slices_S32x128x16_S32x128x8_0_0_8 : S32x128x16.Slices ![0, 0, 8] S32x128x8
  bcast_S_S32x128x8 : S_.BroadcastsInDim S32x128x8 (![] : Fin 0 → Fin S32x128x8.rank)
  bcast_S32x128x8_S32x128x8x1_0_1_2 : S32x128x8.BroadcastsInDim S32x128x8x1 (![0, 1, 2] : Fin 3 → Fin S32x128x8x1.rank)
  concatenates_S32x128x8x1_S32x128x8x1_S32x128x8x2_d3 : Shape.Concatenates [S32x128x8x1, S32x128x8x1] S32x128x8x2 3
  shapeCasts_S32x128x8x2_S32x128x16 : S32x128x8x2.ShapeCasts S32x128x16
  slices_S32x128x16384_S32x128x16368_0_0_16 : S32x128x16384.Slices ![0, 0, 16] S32x128x16368
  concatenates_S32x128x16_S32x128x16368_S32x128x16384_d2 : Shape.Concatenates [S32x128x16, S32x128x16368] S32x128x16384 2
  slices_S32x128x16384_S32x128x32_0_0_0 : S32x128x16384.Slices ![0, 0, 0] S32x128x32
  slices_S32x128x32_S32x128x16_0_0_0 : S32x128x32.Slices ![0, 0, 0] S32x128x16
  slices_S32x128x32_S32x128x16_0_0_16 : S32x128x32.Slices ![0, 0, 16] S32x128x16
  bcast_S_S32x128x16 : S_.BroadcastsInDim S32x128x16 (![] : Fin 0 → Fin S32x128x16.rank)
  bcast_S32x128x16_S32x128x16x1_0_1_2 : S32x128x16.BroadcastsInDim S32x128x16x1 (![0, 1, 2] : Fin 3 → Fin S32x128x16x1.rank)
  concatenates_S32x128x16x1_S32x128x16x1_S32x128x16x2_d3 : Shape.Concatenates [S32x128x16x1, S32x128x16x1] S32x128x16x2 3
  shapeCasts_S32x128x16x2_S32x128x32 : S32x128x16x2.ShapeCasts S32x128x32
  slices_S32x128x16384_S32x128x16352_0_0_32 : S32x128x16384.Slices ![0, 0, 32] S32x128x16352
  concatenates_S32x128x32_S32x128x16352_S32x128x16384_d2 : Shape.Concatenates [S32x128x32, S32x128x16352] S32x128x16384 2
  slices_S32x128x16384_S32x128x64_0_0_0 : S32x128x16384.Slices ![0, 0, 0] S32x128x64
  slices_S32x128x64_S32x128x32_0_0_0 : S32x128x64.Slices ![0, 0, 0] S32x128x32
  slices_S32x128x64_S32x128x32_0_0_32 : S32x128x64.Slices ![0, 0, 32] S32x128x32
  bcast_S_S32x128x32 : S_.BroadcastsInDim S32x128x32 (![] : Fin 0 → Fin S32x128x32.rank)
  bcast_S32x128x32_S32x128x32x1_0_1_2 : S32x128x32.BroadcastsInDim S32x128x32x1 (![0, 1, 2] : Fin 3 → Fin S32x128x32x1.rank)
  concatenates_S32x128x32x1_S32x128x32x1_S32x128x32x2_d3 : Shape.Concatenates [S32x128x32x1, S32x128x32x1] S32x128x32x2 3
  shapeCasts_S32x128x32x2_S32x128x64 : S32x128x32x2.ShapeCasts S32x128x64
  slices_S32x128x16384_S32x128x16320_0_0_64 : S32x128x16384.Slices ![0, 0, 64] S32x128x16320
  concatenates_S32x128x64_S32x128x16320_S32x128x16384_d2 : Shape.Concatenates [S32x128x64, S32x128x16320] S32x128x16384 2
  slices_S32x128x16384_S32x128x128_0_0_0 : S32x128x16384.Slices ![0, 0, 0] S32x128x128
  slices_S32x128x128_S32x128x64_0_0_0 : S32x128x128.Slices ![0, 0, 0] S32x128x64
  slices_S32x128x128_S32x128x64_0_0_64 : S32x128x128.Slices ![0, 0, 64] S32x128x64
  bcast_S_S32x128x64 : S_.BroadcastsInDim S32x128x64 (![] : Fin 0 → Fin S32x128x64.rank)
  bcast_S32x128x64_S32x128x64x1_0_1_2 : S32x128x64.BroadcastsInDim S32x128x64x1 (![0, 1, 2] : Fin 3 → Fin S32x128x64x1.rank)
  concatenates_S32x128x64x1_S32x128x64x1_S32x128x64x2_d3 : Shape.Concatenates [S32x128x64x1, S32x128x64x1] S32x128x64x2 3
  shapeCasts_S32x128x64x2_S32x128x128 : S32x128x64x2.ShapeCasts S32x128x128
  slices_S32x128x16384_S32x128x16256_0_0_128 : S32x128x16384.Slices ![0, 0, 128] S32x128x16256
  concatenates_S32x128x128_S32x128x16256_S32x128x16384_d2 : Shape.Concatenates [S32x128x128, S32x128x16256] S32x128x16384 2
  slices_S32x128x16384_S32x128x256_0_0_0 : S32x128x16384.Slices ![0, 0, 0] S32x128x256
  slices_S32x128x256_S32x128x128_0_0_0 : S32x128x256.Slices ![0, 0, 0] S32x128x128
  slices_S32x128x256_S32x128x128_0_0_128 : S32x128x256.Slices ![0, 0, 128] S32x128x128
  bcast_S_S32x128x128 : S_.BroadcastsInDim S32x128x128 (![] : Fin 0 → Fin S32x128x128.rank)
  bcast_S32x128x128_S32x128x128x1_0_1_2 : S32x128x128.BroadcastsInDim S32x128x128x1 (![0, 1, 2] : Fin 3 → Fin S32x128x128x1.rank)
  concatenates_S32x128x128x1_S32x128x128x1_S32x128x128x2_d3 : Shape.Concatenates [S32x128x128x1, S32x128x128x1] S32x128x128x2 3
  shapeCasts_S32x128x128x2_S32x128x256 : S32x128x128x2.ShapeCasts S32x128x256
  slices_S32x128x16384_S32x128x16128_0_0_256 : S32x128x16384.Slices ![0, 0, 256] S32x128x16128
  concatenates_S32x128x256_S32x128x16128_S32x128x16384_d2 : Shape.Concatenates [S32x128x256, S32x128x16128] S32x128x16384 2
  slices_S32x128x16384_S32x128x512_0_0_0 : S32x128x16384.Slices ![0, 0, 0] S32x128x512
  slices_S32x128x512_S32x128x256_0_0_0 : S32x128x512.Slices ![0, 0, 0] S32x128x256
  slices_S32x128x512_S32x128x256_0_0_256 : S32x128x512.Slices ![0, 0, 256] S32x128x256
  bcast_S_S32x128x256 : S_.BroadcastsInDim S32x128x256 (![] : Fin 0 → Fin S32x128x256.rank)
  bcast_S32x128x256_S32x128x256x1_0_1_2 : S32x128x256.BroadcastsInDim S32x128x256x1 (![0, 1, 2] : Fin 3 → Fin S32x128x256x1.rank)
  concatenates_S32x128x256x1_S32x128x256x1_S32x128x256x2_d3 : Shape.Concatenates [S32x128x256x1, S32x128x256x1] S32x128x256x2 3
  shapeCasts_S32x128x256x2_S32x128x512 : S32x128x256x2.ShapeCasts S32x128x512
  slices_S32x128x16384_S32x128x15872_0_0_512 : S32x128x16384.Slices ![0, 0, 512] S32x128x15872
  concatenates_S32x128x512_S32x128x15872_S32x128x16384_d2 : Shape.Concatenates [S32x128x512, S32x128x15872] S32x128x16384 2
  slices_S32x128x16384_S32x128x1024_0_0_0 : S32x128x16384.Slices ![0, 0, 0] S32x128x1024
  slices_S32x128x1024_S32x128x512_0_0_0 : S32x128x1024.Slices ![0, 0, 0] S32x128x512
  slices_S32x128x1024_S32x128x512_0_0_512 : S32x128x1024.Slices ![0, 0, 512] S32x128x512
  bcast_S_S32x128x512 : S_.BroadcastsInDim S32x128x512 (![] : Fin 0 → Fin S32x128x512.rank)
  bcast_S32x128x512_S32x128x512x1_0_1_2 : S32x128x512.BroadcastsInDim S32x128x512x1 (![0, 1, 2] : Fin 3 → Fin S32x128x512x1.rank)
  concatenates_S32x128x512x1_S32x128x512x1_S32x128x512x2_d3 : Shape.Concatenates [S32x128x512x1, S32x128x512x1] S32x128x512x2 3
  shapeCasts_S32x128x512x2_S32x128x1024 : S32x128x512x2.ShapeCasts S32x128x1024
  slices_S32x128x16384_S32x128x15360_0_0_1024 : S32x128x16384.Slices ![0, 0, 1024] S32x128x15360
  concatenates_S32x128x1024_S32x128x15360_S32x128x16384_d2 : Shape.Concatenates [S32x128x1024, S32x128x15360] S32x128x16384 2
  slices_S32x128x16384_S32x128x2048_0_0_0 : S32x128x16384.Slices ![0, 0, 0] S32x128x2048
  slices_S32x128x2048_S32x128x1024_0_0_0 : S32x128x2048.Slices ![0, 0, 0] S32x128x1024
  slices_S32x128x2048_S32x128x1024_0_0_1024 : S32x128x2048.Slices ![0, 0, 1024] S32x128x1024
  bcast_S_S32x128x1024 : S_.BroadcastsInDim S32x128x1024 (![] : Fin 0 → Fin S32x128x1024.rank)
  bcast_S32x128x1024_S32x128x1024x1_0_1_2 : S32x128x1024.BroadcastsInDim S32x128x1024x1 (![0, 1, 2] : Fin 3 → Fin S32x128x1024x1.rank)
  concatenates_S32x128x1024x1_S32x128x1024x1_S32x128x1024x2_d3 : Shape.Concatenates [S32x128x1024x1, S32x128x1024x1] S32x128x1024x2 3
  shapeCasts_S32x128x1024x2_S32x128x2048 : S32x128x1024x2.ShapeCasts S32x128x2048
  slices_S32x128x16384_S32x128x14336_0_0_2048 : S32x128x16384.Slices ![0, 0, 2048] S32x128x14336
  concatenates_S32x128x2048_S32x128x14336_S32x128x16384_d2 : Shape.Concatenates [S32x128x2048, S32x128x14336] S32x128x16384 2
  slices_S32x128x16384_S32x128x4096_0_0_0 : S32x128x16384.Slices ![0, 0, 0] S32x128x4096
  slices_S32x128x4096_S32x128x2048_0_0_0 : S32x128x4096.Slices ![0, 0, 0] S32x128x2048
  slices_S32x128x4096_S32x128x2048_0_0_2048 : S32x128x4096.Slices ![0, 0, 2048] S32x128x2048
  bcast_S_S32x128x2048 : S_.BroadcastsInDim S32x128x2048 (![] : Fin 0 → Fin S32x128x2048.rank)
  bcast_S32x128x2048_S32x128x2048x1_0_1_2 : S32x128x2048.BroadcastsInDim S32x128x2048x1 (![0, 1, 2] : Fin 3 → Fin S32x128x2048x1.rank)
  concatenates_S32x128x2048x1_S32x128x2048x1_S32x128x2048x2_d3 : Shape.Concatenates [S32x128x2048x1, S32x128x2048x1] S32x128x2048x2 3
  shapeCasts_S32x128x2048x2_S32x128x4096 : S32x128x2048x2.ShapeCasts S32x128x4096
  slices_S32x128x16384_S32x128x12288_0_0_4096 : S32x128x16384.Slices ![0, 0, 4096] S32x128x12288
  concatenates_S32x128x4096_S32x128x12288_S32x128x16384_d2 : Shape.Concatenates [S32x128x4096, S32x128x12288] S32x128x16384 2
  slices_S32x128x16384_S32x128x8192_0_0_0 : S32x128x16384.Slices ![0, 0, 0] S32x128x8192
  slices_S32x128x8192_S32x128x4096_0_0_0 : S32x128x8192.Slices ![0, 0, 0] S32x128x4096
  slices_S32x128x8192_S32x128x4096_0_0_4096 : S32x128x8192.Slices ![0, 0, 4096] S32x128x4096
  bcast_S_S32x128x4096 : S_.BroadcastsInDim S32x128x4096 (![] : Fin 0 → Fin S32x128x4096.rank)
  bcast_S32x128x4096_S32x128x4096x1_0_1_2 : S32x128x4096.BroadcastsInDim S32x128x4096x1 (![0, 1, 2] : Fin 3 → Fin S32x128x4096x1.rank)
  concatenates_S32x128x4096x1_S32x128x4096x1_S32x128x4096x2_d3 : Shape.Concatenates [S32x128x4096x1, S32x128x4096x1] S32x128x4096x2 3
  shapeCasts_S32x128x4096x2_S32x128x8192 : S32x128x4096x2.ShapeCasts S32x128x8192
  slices_S32x128x16384_S32x128x8192_0_0_8192 : S32x128x16384.Slices ![0, 0, 8192] S32x128x8192
  concatenates_S32x128x8192_S32x128x8192_S32x128x16384_d2 : Shape.Concatenates [S32x128x8192, S32x128x8192] S32x128x16384 2
  bcast_S_S32x128x8192 : S_.BroadcastsInDim S32x128x8192 (![] : Fin 0 → Fin S32x128x8192.rank)
  bcast_S32x128x8192_S32x128x8192x1_0_1_2 : S32x128x8192.BroadcastsInDim S32x128x8192x1 (![0, 1, 2] : Fin 3 → Fin S32x128x8192x1.rank)
  concatenates_S32x128x8192x1_S32x128x8192x1_S32x128x8192x2_d3 : Shape.Concatenates [S32x128x8192x1, S32x128x8192x1] S32x128x8192x2 3
  shapeCasts_S32x128x8192x2_S32x128x16384 : S32x128x8192x2.ShapeCasts S32x128x16384
  slices_S32x128x16384_S32x128x0_0_0_16384 : S32x128x16384.Slices ![0, 0, 16384] S32x128x0
  concatenates_S32x128x16384_S32x128x0_S32x128x16384_d2 : Shape.Concatenates [S32x128x16384, S32x128x0] S32x128x16384 2

variable [Facts₀]

class Facts : Prop extends Facts₀ where

variable [Facts]
-- ==== Proof.Haar.lean ====
/-
  The multi-level inverse Haar synthesis along a row, written once as a function on sequences of extended reals.

  One level of half-width `h` reads the first `2 h` entries of a row as `h` approximation coefficients `a`
  followed by `h` detail coefficients `d`, and writes the butterflies `(a k + d k) · c` and `(a k - d k) · c`
  interleaved at the positions `2 k` and `2 k + 1`; the entries from `2 h` on are kept. The whole transform runs
  the fourteen levels of half-widths 1, 2, 4, …, 8192 in that order on a row of 16384 entries. The scale `c` is the
  single-precision number nearest to 1/√2, read as the real its bit pattern denotes; no law of arithmetic is used
  anywhere below — both programs compute these very sums, differences and products, only laid out differently.
-/
import Idealize.ShloMosaic.PureOps.Ideal
import Idealize.ShloMosaic.Lib.ValueIdx

noncomputable section

namespace Cert.Haar

open Idealize.ShloMosaic Idealize.ShloMosaic.ValueIdx

/-- The scale of every butterfly: what the pattern `0x3F3504F3` denotes. -/
def c : EReal := Ideal.ofBits .f32 0x3F3504F3#32

/-- One synthesis level of half-width `h` on a row `f`. -/
def lvl (h : ℕ) (f : ℕ → EReal) : ℕ → EReal := fun j =>
  if j < 2 * h then
    (if j % 2 = 0 then (f (j / 2) + f (h + j / 2)) * c else (f (j / 2) - f (h + j / 2)) * c)
  else f j

theorem lvl_lt_even {h : ℕ} (f : ℕ → EReal) {j : ℕ} (hj : j < 2 * h) (he : j % 2 = 0) :
    lvl h f j = (f (j / 2) + f (h + j / 2)) * c := by
  unfold lvl; rw [if_pos hj, if_pos he]

theorem lvl_lt_odd {h : ℕ} (f : ℕ → EReal) {j : ℕ} (hj : j < 2 * h) (he : ¬ j % 2 = 0) :
    lvl h f j = (f (j / 2) - f (h + j / 2)) * c := by
  unfold lvl; rw [if_pos hj, if_neg he]

theorem lvl_ge {h : ℕ} (f : ℕ → EReal) {j : ℕ} (hj : ¬ j < 2 * h) : lvl h f j = f j := by
  unfold lvl; rw [if_neg hj]

/-- A level reads its row only below `2 h` and at the entry it keeps: two rows that agree below a bound `n ≥ 2 h`
    have levels that agree below `n`. -/
theorem lvl_congr {h n : ℕ} (hn : 2 * h ≤ n) {f g : ℕ → EReal} (hfg : ∀ k, k < n → f k = g k) :
    ∀ j, j < n → lvl h f j = lvl h g j := by
  intro j hj
  by_cases hlt : j < 2 * h
  · by_cases he : j % 2 = 0
    · rw [lvl_lt_even f hlt he, lvl_lt_even g hlt he, hfg _ (by omega), hfg _ (by omega)]
    · rw [lvl_lt_odd f hlt he, lvl_lt_odd g hlt he, hfg _ (by omega), hfg _ (by omega)]
  · rw [lvl_ge f hlt, lvl_ge g hlt, hfg j hj]

/-- The fourteen levels, coarsest first. -/
def haar (f : ℕ → EReal) : ℕ → EReal :=
  lvl 8192 (lvl 4096 (lvl 2048 (lvl 1024 (lvl 512 (lvl 256 (lvl 128 (lvl 64 (lvl 32 (lvl 16 (lvl 8 (lvl 4 (lvl 2
    (lvl 1 f)))))))))))))

/-- Row `r` of a matrix as a sequence (zero past its width; no level of the transform looks there). -/
def row2 {R N : ℕ} (X : (⟨2, ![R, N]⟩ : Shape).Idx → EReal) (r : Fin R) : ℕ → EReal :=
  fun k => if hk : k < N then X (ix2 r ⟨k, hk⟩) else 0

theorem row2_lt {R N : ℕ} (X : (⟨2, ![R, N]⟩ : Shape).Idx → EReal) (r : Fin R) {k : ℕ} (hk : k < N) :
    row2 X r k = X (ix2 r ⟨k, hk⟩) := by
  unfold row2; rw [dif_pos hk]

/-- The last-axis row `(b, w)` of a rank-3 array as a sequence. -/
def row3 {A B N : ℕ} (X : (⟨3, ![A, B, N]⟩ : Shape).Idx → EReal) (b : Fin A) (w : Fin B) : ℕ → EReal :=
  fun k => if hk : k < N then X (ix3 b w ⟨k, hk⟩) else 0

theorem row3_lt {A B N : ℕ} (X : (⟨3, ![A, B, N]⟩ : Shape).Idx → EReal) (b : Fin A) (w : Fin B) {k : ℕ}
    (hk : k < N) : row3 X b w k = X (ix3 b w ⟨k, hk⟩) := by
  unfold row3; rw [dif_pos hk]

end Cert.Haar

end
-- ==== Proof.Level.lean ====
/-
  One level of the transform as each program lays it out, read at an index.

  Both programs build a level's output by stacking the two butterfly halves `p` (sums) and `q` (differences) along a
  new last axis of extent two and flattening the pair of last axes: column `j` of the flattened row is entry
  `(j / 2, j % 2)` of the stack, so it is `p (j / 2)` at an even column and `q (j / 2)` at an odd one. The two
  halves of the input are cut out by slices at the columns `0` and `h`.
-/
import Idealize.ShloMosaic.PureOps.Ideal
import Idealize.ShloMosaic.Lib.ValueIdx
import Idealize.ShloMosaic.Lib.ValueLayout
import Idealize.ShloMosaic.Lib.Pipeline.Value
import proofs.«416311_j40870908789396_4_alg».proof.Proof.Haar

noncomputable section

namespace Cert.Haar

open Idealize.ShloMosaic Idealize.ShloMosaic.ValueIdx

section Vec
variable {R h m : ℕ}

/-- Two [R, h] arrays stacked on a new unit last axis, concatenated there and flattened to [R, 2 h], at column `j`:
    the first at `j / 2` when `j` is even, the second at `j / 2` when it is odd. -/
theorem interleave2_apply {α : Type} (hm : m = 2 * h)
    (hc1 : (⟨2, ![R, h]⟩ : Shape).ShapeCasts ⟨3, ![R, h, 1]⟩)
    (hcat : Shape.Concatenates [(⟨3, ![R, h, 1]⟩ : Shape), ⟨3, ![R, h, 1]⟩] ⟨3, ![R, h, 2]⟩ 2)
    (hc2 : (⟨3, ![R, h, 2]⟩ : Shape).ShapeCasts ⟨2, ![R, m]⟩)
    (p q : (⟨2, ![R, h]⟩ : Shape).Idx → α) (r : Fin R) (j : Fin m) (k : Fin h) (hk : k.val = j.val / 2) :
    shapeCast (⟨2, ![R, m]⟩ : Shape)
      (concatenate (⟨3, ![R, h, 2]⟩ : Shape) 2
        [⟨⟨3, ![R, h, 1]⟩, shapeCast (⟨3, ![R, h, 1]⟩ : Shape) p hc1⟩,
         ⟨⟨3, ![R, h, 1]⟩, shapeCast (⟨3, ![R, h, 1]⟩ : Shape) q hc1⟩] hcat) hc2 (ix2 r j)
      = if j.val % 2 = 0 then p (ix2 r k) else q (ix2 r k) := by
  have hlt : j.val % 2 < 2 := Nat.mod_lt _ (by norm_num)
  refine (shapeCast_apply _ hc2 (ix2 r j) (ix3 r k ⟨j.val % 2, hlt⟩) ?_).trans ?_
  · rw [Shape.rowMajor_val_three, Shape.rowMajor_val_two]
    show ((r.val * h + k.val) * 2 + j.val % 2) = r.val * m + j.val
    subst hm
    have e : r.val * (2 * h) = 2 * (r.val * h) := by ring
    rw [hk, e]; omega
  · by_cases he : j.val % 2 = 0
    · rw [if_pos he]
      refine (concatenate_pair_apply_left 2 _ _ hcat (ix3 r k ⟨j.val % 2, hlt⟩) rfl (ix3 r k ⟨0, by norm_num⟩) ?_).trans ?_
      · intro b
        match b with
        | ⟨0, _⟩ => rfl
        | ⟨1, _⟩ => rfl
        | ⟨2, _⟩ => exact he.symm
      · refine shapeCast_apply _ hc1 _ (ix2 r k) ?_
        rw [Shape.rowMajor_val_three, Shape.rowMajor_val_two]
        show r.val * h + k.val = (r.val * h + k.val) * 1 + 0
        omega
    · rw [if_neg he]
      refine (concatenate_pair_apply_right 2 _ _ hcat (ix3 r k ⟨j.val % 2, hlt⟩) rfl rfl (ix3 r k ⟨0, by norm_num⟩) ?_ ?_).trans ?_
      · intro b hb
        match b, hb with
        | ⟨0, _⟩, _ => rfl
        | ⟨1, _⟩, _ => rfl
        | ⟨2, _⟩, hb => exact absurd rfl hb
      · show 0 + 1 = j.val % 2
        omega
      · refine shapeCast_apply _ hc1 _ (ix2 r k) ?_
        rw [Shape.rowMajor_val_three, Shape.rowMajor_val_two]
        show r.val * h + k.val = (r.val * h + k.val) * 1 + 0
        omega

/-- One level as the kernel computes it on a loaded [R, m] block `v` (m = 2 h): the two halves cut out at the columns `0`
    and `h`, their sum and difference scaled, stacked and flattened — at column `j` of row `r` it is the level of the
    row read as a sequence. -/
theorem vec_level (hm : m = 2 * h)
    (hself : (⟨2, ![R, m]⟩ : Shape).ShapeCasts ⟨2, ![R, m]⟩)
    (hs0 : (⟨2, ![R, m]⟩ : Shape).Slices ![0, 0] ⟨2, ![R, h]⟩)
    (hs1 : (⟨2, ![R, m]⟩ : Shape).Slices ![0, h] ⟨2, ![R, h]⟩)
    (hc1 : (⟨2, ![R, h]⟩ : Shape).ShapeCasts ⟨3, ![R, h, 1]⟩)
    (hcat : Shape.Concatenates [(⟨3, ![R, h, 1]⟩ : Shape), ⟨3, ![R, h, 1]⟩] ⟨3, ![R, h, 2]⟩ 2)
    (hc2 : (⟨3, ![R, h, 2]⟩ : Shape).ShapeCasts ⟨2, ![R, m]⟩)
    (v : FVec Ideal ⟨2, ![R, m]⟩ .f32) (r : Fin R) (j : Fin m) :
    shapeCast (⟨2, ![R, m]⟩ : Shape)
      (concatenate (⟨3, ![R, h, 2]⟩ : Shape) 2
        [⟨⟨3, ![R, h, 1]⟩, shapeCast (⟨3, ![R, h, 1]⟩ : Shape)
            (mulf (addf (extractStridedSlice (⟨2, ![R, h]⟩ : Shape) ![0, 0] (shapeCast (⟨2, ![R, m]⟩ : Shape) v hself) hs0)
                        (extractStridedSlice (⟨2, ![R, h]⟩ : Shape) ![0, h] (shapeCast (⟨2, ![R, m]⟩ : Shape) v hself) hs1))
                  (broadcast (⟨2, ![R, h]⟩ : Shape) (Scalar.ofBits (F := Ideal) .f32 0x3F3504F3#32))) hc1⟩,
         ⟨⟨3, ![R, h, 1]⟩, shapeCast (⟨3, ![R, h, 1]⟩ : Shape)
            (mulf (subf (extractStridedSlice (⟨2, ![R, h]⟩ : Shape) ![0, 0] (shapeCast (⟨2, ![R, m]⟩ : Shape) v hself) hs0)
                        (extractStridedSlice (⟨2, ![R, h]⟩ : Shape) ![0, h] (shapeCast (⟨2, ![R, m]⟩ : Shape) v hself) hs1))
                  (broadcast (⟨2, ![R, h]⟩ : Shape) (Scalar.ofBits (F := Ideal) .f32 0x3F3504F3#32))) hc1⟩] hcat) hc2 (ix2 r j)
      = lvl h (row2 v r) j.val := by
  have hjm : j.val < 2 * h := hm ▸ j.isLt
  have hk : j.val / 2 < h := by omega
  have hk0 : j.val / 2 < m := by omega
  have hk1 : h + j.val / 2 < m := by omega
  rw [interleave2_apply hm hc1 hcat hc2 _ _ r j ⟨j.val / 2, hk⟩ rfl, shapeCast_self]
  have e0 : extractStridedSlice (⟨2, ![R, h]⟩ : Shape) ![0, 0] v hs0 (ix2 r ⟨j.val / 2, hk⟩) = v (ix2 r ⟨j.val / 2, hk0⟩) :=
    slice2_axis1_apply 0 v hs0 r ⟨j.val / 2, hk⟩ ⟨j.val / 2, hk0⟩ (Nat.zero_add _).symm
  have e1 : extractStridedSlice (⟨2, ![R, h]⟩ : Shape) ![0, h] v hs1 (ix2 r ⟨j.val / 2, hk⟩) = v (ix2 r ⟨h + j.val / 2, hk1⟩) :=
    slice2_axis1_apply h v hs1 r ⟨j.val / 2, hk⟩ ⟨h + j.val / 2, hk1⟩ rfl
  by_cases he : j.val % 2 = 0
  · rw [if_pos he, lvl_lt_even _ hjm he, row2_lt v r hk0, row2_lt v r hk1, mulf_apply, addf_apply, broadcast_apply, e0, e1]
    rfl
  · rw [if_neg he, lvl_lt_odd _ hjm he, row2_lt v r hk0, row2_lt v r hk1, mulf_apply, subf_apply, broadcast_apply, e0, e1]
    rfl

end Vec

end Cert.Haar

end
-- ==== Proof.Canon.lean ====
/-
  A row block rewritten in place, level by level.

  The kernel keeps a block of `R` rows in one buffer and runs each level on it in place: it loads the first `m = 2 h`
  columns as they stand after the earlier stores, computes the level on them, and stores the `m` columns back over
  what was there. What the buffer holds after the store is therefore the level applied to every row of what it held
  before (`blkStep`): below column `m` the new store is read, from `m` on the earlier contents, and the level itself
  reads only the columns below `m`, which the load delivered unchanged. Iterating the fourteen levels from the
  block as loaded gives the transform of every row (`blkHaar`).
-/
import Idealize.ShloMosaic.Lib.Pipeline.Value
import proofs.«416311_j40870908789396_4_alg».proof.Proof.Haar

noncomputable section

namespace Cert.Haar

open Idealize.ShloMosaic Idealize.ShloMosaic.ValueIdx

variable {R N : ℕ}

/-- One level applied to every row of a block. -/
def blkStep (h : ℕ) (X : (⟨2, ![R, N]⟩ : Shape).Idx → EReal) : (⟨2, ![R, N]⟩ : Shape).Idx → EReal :=
  fun i => lvl h (row2 X (i 0)) (i 1).val

/-- A row of the stepped block is the level of the row, at every column of the block. -/
theorem row2_blkStep (h : ℕ) (X : (⟨2, ![R, N]⟩ : Shape).Idx → EReal) (r : Fin R) {k : ℕ} (hk : k < N) :
    row2 (blkStep h X) r k = lvl h (row2 X r) k := by
  rw [row2_lt _ _ hk]; rfl

section Pieces
variable {sig : RefSig} {κ : Kind} {sp : Space}

/-- A list of stores that covers the buffer still covers it with one more store in front. -/
theorem cover_cons {S : Shape} {e : EltTy} {Val : EltTy → Type} (p : View.Piece Val S e) (L : List (View.Piece Val S e))
    (hcov : ∀ y : S.Idx, ∃ q ∈ L, y ∈ q.1.set) : ∀ y : S.Idx, ∃ q ∈ p :: L, y ∈ q.1.set := fun y => by
  obtain ⟨q, hq, hy⟩ := hcov y
  exact ⟨q, List.mem_cons_of_mem _ hq, hy⟩

/-- What the buffer reads after one more level stored over its first `m = 2 h` columns, the level computed from a
    load of those columns: the level of every row of what it read before. -/
theorem canon_level {h m : ℕ} (hm : m = 2 * h)
    (inb : ∀ a, (![0, 0] : Fin 2 → ℕ) a + (![R, m] : Fin 2 → ℕ) a ≤ (⟨2, ![R, N]⟩ : Shape).size a)
    (v : View sig κ sp ⟨2, ![R, N]⟩ .f32)
    (L : List (View.Piece (Elt Ideal) ⟨2, ![R, N]⟩ .f32)) (hcov : ∀ y, ∃ p ∈ L, y ∈ p.1.set)
    (w : (⟨2, ![R, m]⟩ : Shape).Idx → EReal)
    (hw : ∀ (r : Fin R) (j : Fin m),
      w (ix2 r j) = lvl h (row2 (v.readCov L (Rect.unit (s := ⟨2, ![R, N]⟩) ![0, 0] ![R, m] inb).toLoadRect) r) j.val) :
    View.canon ((⟨Rect.unit (s := ⟨2, ![R, N]⟩) ![0, 0] ![R, m] inb, w⟩ : View.Piece (Elt Ideal) ⟨2, ![R, N]⟩ .f32) :: L)
      = blkStep h (View.canon L) := by
  have hmN : m ≤ N := by have := inb 1; simpa using this
  -- the load delivers the first `m` columns of what the buffer read
  have hld : ∀ (r : Fin R) (k : ℕ) (hk : k < m),
      row2 (v.readCov L (Rect.unit (s := ⟨2, ![R, N]⟩) ![0, 0] ![R, m] inb).toLoadRect) r k = row2 (View.canon L) r k := by
    intro r k hk
    rw [View.readCov_eq_canon_ld v L _ hcov, row2_lt _ r hk, row2_lt _ r (lt_of_lt_of_le hk hmN)]
    refine congrArg (View.canon L) (funext fun a => Fin.ext ?_)
    match a with
    | ⟨0, _⟩ => show 0 + 1 * r.val = r.val; omega
    | ⟨1, _⟩ => show 0 + 1 * k = k; omega
  funext y
  obtain ⟨r, j, rfl⟩ : ∃ (r : Fin R) (j : Fin N), y = ix2 r j := ⟨y 0, y 1, eq_ix2 y⟩
  show _ = lvl h (row2 (View.canon L) r) j.val
  by_cases hj : j.val < m
  · have hy : ix2 r j = (Rect.unit (s := ⟨2, ![R, N]⟩) ![0, 0] ![R, m] inb).emb (ix2 r ⟨j.val, hj⟩) := by
      funext a
      refine Fin.ext ?_
      match a with
      | ⟨0, _⟩ => show r.val = 0 + 1 * r.val; omega
      | ⟨1, _⟩ => show j.val = 0 + 1 * j.val; omega
    rw [hy, View.canon_cons_emb, hw r ⟨j.val, hj⟩]
    exact lvl_congr (n := m) (by omega) (fun k hk => hld r k hk) j.val hj
  · rw [View.canon_cons_of_not_mem _ _ (by
      intro hmem
      have := (Rect.mem_set_unit (s := ⟨2, ![R, N]⟩) (off := ![0, 0]) (size := ![R, m]) (inb := inb)).mp hmem 1
      have h2 : j.val < 0 + m := this.2
      omega), lvl_ge _ (by omega), row2_lt _ r j.isLt]

end Pieces

/-- The fourteen levels on every row of a block. -/
def blkHaar (X : (⟨2, ![R, N]⟩ : Shape).Idx → EReal) : (⟨2, ![R, N]⟩ : Shape).Idx → EReal :=
  blkStep 8192 (blkStep 4096 (blkStep 2048 (blkStep 1024 (blkStep 512 (blkStep 256 (blkStep 128 (blkStep 64 (blkStep 32
    (blkStep 16 (blkStep 8 (blkStep 4 (blkStep 2 (blkStep 1 X)))))))))))))

/-- On a block 16384 columns wide, stepping level by level is the transform of each row. -/
theorem blkHaar_apply (X : (⟨2, ![R, 16384]⟩ : Shape).Idx → EReal) (r : Fin R) (j : Fin 16384) :
    blkHaar X (ix2 r j) = haar (row2 X r) j.val := by
  have step : ∀ (h : ℕ) (_ : 2 * h ≤ 16384) (Y : (⟨2, ![R, 16384]⟩ : Shape).Idx → EReal) (g : ℕ → EReal),
      (∀ k, k < 16384 → row2 Y r k = g k) → ∀ k, k < 16384 → row2 (blkStep h Y) r k = lvl h g k := by
    intro h hh Y g hY k hk
    rw [row2_blkStep h Y r hk]
    exact lvl_congr hh hY k hk
  have h0 : ∀ k, k < 16384 → row2 X r k = row2 X r k := fun _ _ => rfl
  have h1 := step 1 (by norm_num) _ _ h0
  have h2 := step 2 (by norm_num) _ _ h1
  have h3 := step 4 (by norm_num) _ _ h2
  have h4 := step 8 (by norm_num) _ _ h3
  have h5 := step 16 (by norm_num) _ _ h4
  have h6 := step 32 (by norm_num) _ _ h5
  have h7 := step 64 (by norm_num) _ _ h6
  have h8 := step 128 (by norm_num) _ _ h7
  have h9 := step 256 (by norm_num) _ _ h8
  have h10 := step 512 (by norm_num) _ _ h9
  have h11 := step 1024 (by norm_num) _ _ h10
  have h12 := step 2048 (by norm_num) _ _ h11
  have h13 := step 4096 (by norm_num) _ _ h12
  have h14 := step 8192 (by norm_num) _ _ h13
  have := h14 j.val j.isLt
  rw [row2_lt _ r j.isLt] at this
  exact this

end Cert.Haar

end
-- ==== Proof.KernelBlock.lean ====
/-
  What one run of the kernel body leaves in its output block: the transform of every row of the input block.

  The body copies the input block into the output buffer and then runs the fourteen levels in place, each a load of
  the first `m` columns of the buffer, the level computed on them, and a store of the `m` columns back. Read through the
  list of stores the run made (newest first), the buffer after each store is the level applied to every row of the
  buffer before it; after the first store it is the input block itself. So after the last store it is the fourteen
  levels, coarsest first, applied to every row of the input block.
-/
import proofs.«416311_j40870908789396_4_alg».proof.Proof.Gen.KernelIdeal.Frame
import proofs.«416311_j40870908789396_4_alg».proof.Proof.Level
import proofs.«416311_j40870908789396_4_alg».proof.Proof.Canon

set_option maxRecDepth 16384

noncomputable section

namespace Cert.KernelIdeal.Block

open Cert.KernelIdeal Cert.KernelIdeal.Gen Cert.Haar
open Idealize.ShloMosaic Idealize.ShloMosaic.ValueIdx

/-! ## Each level's stored value, at a column: the level of the loaded row -/

theorem lvl1 (u : Vec Ideal S32x2 .f32) (r : Fin 32) (j : Fin 2) : k0_pay3 u (ix2 r j) = lvl 1 (row2 u r) j.val :=
  vec_level (R := 32) (h := 1) (m := 2) rfl shapeCasts_S32x2_S32x2 slices_S32x2_o0_0_S32x1 slices_S32x2_o0_1_S32x1
    shapeCasts_S32x1_S32x1x1 concatenates_S32x1x1_S32x1x1_S32x1x2_d2 shapeCasts_S32x1x2_S32x2 u r j

theorem lvl2 (u : Vec Ideal S32x4 .f32) (r : Fin 32) (j : Fin 4) : k0_pay4 u (ix2 r j) = lvl 2 (row2 u r) j.val :=
  vec_level (R := 32) (h := 2) (m := 4) rfl shapeCasts_S32x4_S32x4 slices_S32x4_o0_0_S32x2 slices_S32x4_o0_2_S32x2
    shapeCasts_S32x2_S32x2x1 concatenates_S32x2x1_S32x2x1_S32x2x2_d2 shapeCasts_S32x2x2_S32x4 u r j

theorem lvl3 (u : Vec Ideal S32x8 .f32) (r : Fin 32) (j : Fin 8) :
    k0_pay9 (k0_pay6 u) (k0_pay7 u) (k0_pay8 u) (ix2 r j) = lvl 4 (row2 u r) j.val :=
  vec_level (R := 32) (h := 4) (m := 8) rfl shapeCasts_S32x8_S32x8 slices_S32x8_o0_0_S32x4 slices_S32x8_o0_4_S32x4
    shapeCasts_S32x4_S32x4x1 concatenates_S32x4x1_S32x4x1_S32x4x2_d2 shapeCasts_S32x4x2_S32x8 u r j

theorem lvl4 (u : Vec Ideal S32x16 .f32) (r : Fin 32) (j : Fin 16) : k0_pay10 u (ix2 r j) = lvl 8 (row2 u r) j.val :=
  vec_level (R := 32) (h := 8) (m := 16) rfl shapeCasts_S32x16_S32x16 slices_S32x16_o0_0_S32x8 slices_S32x16_o0_8_S32x8
    shapeCasts_S32x8_S32x8x1 concatenates_S32x8x1_S32x8x1_S32x8x2_d2 shapeCasts_S32x8x2_S32x16 u r j

theorem lvl5 (u : Vec Ideal S32x32 .f32) (r : Fin 32) (j : Fin 32) : k0_pay11 u (ix2 r j) = lvl 16 (row2 u r) j.val :=
  vec_level (R := 32) (h := 16) (m := 32) rfl shapeCasts_S32x32_S32x32 slices_S32x32_o0_0_S32x16 slices_S32x32_o0_16_S32x16
    shapeCasts_S32x16_S32x16x1 concatenates_S32x16x1_S32x16x1_S32x16x2_d2 shapeCasts_S32x16x2_S32x32 u r j

theorem lvl6 (u : Vec Ideal S32x64 .f32) (r : Fin 32) (j : Fin 64) : k0_pay12 u (ix2 r j) = lvl 32 (row2 u r) j.val :=
  vec_level (R := 32) (h := 32) (m := 64) rfl shapeCasts_S32x64_S32x64 slices_S32x64_o0_0_S32x32 slices_S32x64_o0_32_S32x32
    shapeCasts_S32x32_S32x32x1 concatenates_S32x32x1_S32x32x1_S32x32x2_d2 shapeCasts_S32x32x2_S32x64 u r j

theorem lvl7 (u : Vec Ideal S32x128 .f32) (r : Fin 32) (j : Fin 128) : k0_pay13 u (ix2 r j) = lvl 64 (row2 u r) j.val :=
  vec_level (R := 32) (h := 64) (m := 128) rfl shapeCasts_S32x128_S32x128 slices_S32x128_o0_0_S32x64 slices_S32x128_o0_64_S32x64
    shapeCasts_S32x64_S32x64x1 concatenates_S32x64x1_S32x64x1_S32x64x2_d2 shapeCasts_S32x64x2_S32x128 u r j

theorem lvl8 (u : Vec Ideal S32x256 .f32) (r : Fin 32) (j : Fin 256) :
    k0_pay15 (k0_pay14 u) (ix2 r j) = lvl 128 (row2 u r) j.val :=
  vec_level (R := 32) (h := 128) (m := 256) rfl shapeCasts_S32x256_S32x256 slices_S32x256_o0_0_S32x128 slices_S32x256_o0_128_S32x128
    shapeCasts_S32x128_S32x128x1 concatenates_S32x128x1_S32x128x1_S32x128x2_d2 shapeCasts_S32x128x2_S32x256 u r j

theorem lvl9 (u : Vec Ideal S32x512 .f32) (r : Fin 32) (j : Fin 512) : k0_pay16 u (ix2 r j) = lvl 256 (row2 u r) j.val :=
  vec_level (R := 32) (h := 256) (m := 512) rfl shapeCasts_S32x512_S32x512 slices_S32x512_o0_0_S32x256 slices_S32x512_o0_256_S32x256
    shapeCasts_S32x256_S32x256x1 concatenates_S32x256x1_S32x256x1_S32x256x2_d2 shapeCasts_S32x256x2_S32x512 u r j

theorem lvl10 (u : Vec Ideal S32x1024 .f32) (r : Fin 32) (j : Fin 1024) : k0_pay17 u (ix2 r j) = lvl 512 (row2 u r) j.val :=
  vec_level (R := 32) (h := 512) (m := 1024) rfl shapeCasts_S32x1024_S32x1024 slices_S32x1024_o0_0_S32x512 slices_S32x1024_o0_512_S32x512
    shapeCasts_S32x512_S32x512x1 concatenates_S32x512x1_S32x512x1_S32x512x2_d2 shapeCasts_S32x512x2_S32x1024 u r j

theorem lvl11 (u : Vec Ideal S32x2048 .f32) (r : Fin 32) (j : Fin 2048) :
    k0_pay23 (k0_pay21 u) (k0_pay22 u) (ix2 r j) = lvl 1024 (row2 u r) j.val :=
  vec_level (R := 32) (h := 1024) (m := 2048) rfl shapeCasts_S32x2048_S32x2048 slices_S32x2048_o0_0_S32x1024 slices_S32x2048_o0_1024_S32x1024
    shapeCasts_S32x1024_S32x1024x1 concatenates_S32x1024x1_S32x1024x1_S32x1024x2_d2 shapeCasts_S32x1024x2_S32x2048 u r j

theorem lvl12 (u : Vec Ideal S32x4096 .f32) (r : Fin 32) (j : Fin 4096) : k0_pay24 u (ix2 r j) = lvl 2048 (row2 u r) j.val :=
  vec_level (R := 32) (h := 2048) (m := 4096) rfl shapeCasts_S32x4096_S32x4096 slices_S32x4096_o0_0_S32x2048 slices_S32x4096_o0_2048_S32x2048
    shapeCasts_S32x2048_S32x2048x1 concatenates_S32x2048x1_S32x2048x1_S32x2048x2_d2 shapeCasts_S32x2048x2_S32x4096 u r j

theorem lvl13 (u : Vec Ideal S32x8192 .f32) (r : Fin 32) (j : Fin 8192) : k0_pay25 u (ix2 r j) = lvl 4096 (row2 u r) j.val :=
  vec_level (R := 32) (h := 4096) (m := 8192) rfl shapeCasts_S32x8192_S32x8192 slices_S32x8192_o0_0_S32x4096 slices_S32x8192_o0_4096_S32x4096
    shapeCasts_S32x4096_S32x4096x1 concatenates_S32x4096x1_S32x4096x1_S32x4096x2_d2 shapeCasts_S32x4096x2_S32x8192 u r j

theorem lvl14 (u : Vec Ideal S32x16384 .f32) (r : Fin 32) (j : Fin 16384) :
    k0_pay1 (k0_pay26 u) (k0_pay27 u) (ix2 r j) = lvl 8192 (row2 u r) j.val :=
  vec_level (R := 32) (h := 8192) (m := 16384) rfl shapeCasts_S32x16384_S32x16384 slices_S32x16384_o0_0_S32x8192 slices_S32x16384_o0_8192_S32x8192
    shapeCasts_S32x8192_S32x8192x1 concatenates_S32x8192x1_S32x8192x1_S32x8192x2_d2 shapeCasts_S32x8192x2_S32x16384 u r j

/-! ## The buffer after each store -/

section Run
variable (c : Dev nD) (arg1 : Memref sig .tc .vmem S32x16384 .f32) (harg1 : arg1.IsWhole)
  (arg2 : Memref sig .tc .vmem S32x16384 .f32) (x0 : Vec Ideal S32x16384 .f32)

theorem zeros : (![0, 0] : Fin S32x16384.rank → ℕ) = fun _ => 0 := by
  funext a
  match a with
  | ⟨0, _⟩ => rfl
  | ⟨1, _⟩ => rfl

/-- After the copy: the input block. -/
theorem canon1 : View.canon (kernelRun0_A.sl.H1_1 (F := Ideal) c arg1 harg1 x0) = x0 := by
  unfold kernelRun0_A.sl.H1_1
  rw [View.canon_unit_zero zeros]
  unfold k0_pay2
  rw [shapeCast_self, View.readAt_eq_ld, harg1.read_unread, View.ld_unit_zero zeros]

theorem cover1 : ∀ y, ∃ p ∈ kernelRun0_A.sl.H1_1 (F := Ideal) c arg1 harg1 x0, y ∈ p.1.set := by
  unfold kernelRun0_A.sl.H1_1
  intro y
  exact ⟨_, List.mem_singleton_self _, View.mem_set_unit_zero zeros inb_S32x16384_S32x16384_0_0 y⟩

theorem cover2 : ∀ y, ∃ p ∈ kernelRun0_A.sl.H1_2 (F := Ideal) c arg1 harg1 arg2 x0, y ∈ p.1.set :=
  cover_cons _ _ (cover1 c arg1 harg1 x0)
theorem cover3 : ∀ y, ∃ p ∈ kernelRun0_A.sl.H1_3 (F := Ideal) c arg1 harg1 arg2 x0, y ∈ p.1.set :=
  cover_cons _ _ (cover2 c arg1 harg1 arg2 x0)
theorem cover4 : ∀ y, ∃ p ∈ kernelRun0_A.sl.H1_4 (F := Ideal) c arg1 harg1 arg2 x0, y ∈ p.1.set :=
  cover_cons _ _ (cover3 c arg1 harg1 arg2 x0)
theorem cover5 : ∀ y, ∃ p ∈ kernelRun0_A.sl.H1_5 (F := Ideal) c arg1 harg1 arg2 x0, y ∈ p.1.set :=
  cover_cons _ _ (cover4 c arg1 harg1 arg2 x0)
theorem cover6 : ∀ y, ∃ p ∈ kernelRun0_A.sl.H1_6 (F := Ideal) c arg1 harg1 arg2 x0, y ∈ p.1.set :=
  cover_cons _ _ (cover5 c arg1 harg1 arg2 x0)
theorem cover7 : ∀ y, ∃ p ∈ kernelRun0_A.sl.H1_7 (F := Ideal) c arg1 harg1 arg2 x0, y ∈ p.1.set :=
  cover_cons _ _ (cover6 c arg1 harg1 arg2 x0)
theorem cover8 : ∀ y, ∃ p ∈ kernelRun0_A.sl.H1_8 (F := Ideal) c arg1 harg1 arg2 x0, y ∈ p.1.set :=
  cover_cons _ _ (cover7 c arg1 harg1 arg2 x0)
theorem cover9 : ∀ y, ∃ p ∈ kernelRun0_A.sl.H1_9 (F := Ideal) c arg1 harg1 arg2 x0, y ∈ p.1.set :=
  cover_cons _ _ (cover8 c arg1 harg1 arg2 x0)
theorem cover10 : ∀ y, ∃ p ∈ kernelRun0_A.sl.H1_10 (F := Ideal) c arg1 harg1 arg2 x0, y ∈ p.1.set :=
  cover_cons _ _ (cover9 c arg1 harg1 arg2 x0)
theorem cover11 : ∀ y, ∃ p ∈ kernelRun0_A.sl.H1_11 (F := Ideal) c arg1 harg1 arg2 x0, y ∈ p.1.set :=
  cover_cons _ _ (cover10 c arg1 harg1 arg2 x0)
theorem cover12 : ∀ y, ∃ p ∈ kernelRun0_A.sl.H1_12 (F := Ideal) c arg1 harg1 arg2 x0, y ∈ p.1.set :=
  cover_cons _ _ (cover11 c arg1 harg1 arg2 x0)
theorem cover13 : ∀ y, ∃ p ∈ kernelRun0_A.sl.H1_13 (F := Ideal) c arg1 harg1 arg2 x0, y ∈ p.1.set :=
  cover_cons _ _ (cover12 c arg1 harg1 arg2 x0)
theorem cover14 : ∀ y, ∃ p ∈ kernelRun0_A.sl.H1_14 (F := Ideal) c arg1 harg1 arg2 x0, y ∈ p.1.set :=
  cover_cons _ _ (cover13 c arg1 harg1 arg2 x0)

/-- After the level of half-width 1. -/
theorem canon2 : View.canon (kernelRun0_A.sl.H1_2 (F := Ideal) c arg1 harg1 arg2 x0) = blkStep 1 x0 :=
  (canon_level (R := 32) (N := 16384) (h := 1) (m := 2) rfl inb_S32x16384_S32x2_0_0 arg2.view _
    (cover1 c arg1 harg1 x0) _ (fun r j => lvl1 _ r j)).trans (congrArg (blkStep 1) (canon1 c arg1 harg1 x0))

theorem canon3 : View.canon (kernelRun0_A.sl.H1_3 (F := Ideal) c arg1 harg1 arg2 x0) = blkStep 2 (blkStep 1 x0) :=
  (canon_level (R := 32) (N := 16384) (h := 2) (m := 4) rfl inb_S32x16384_S32x4_0_0 arg2.view _
    (cover2 c arg1 harg1 arg2 x0) _ (fun r j => lvl2 _ r j)).trans (congrArg (blkStep 2) (canon2 c arg1 harg1 arg2 x0))

theorem canon4 : View.canon (kernelRun0_A.sl.H1_4 (F := Ideal) c arg1 harg1 arg2 x0)
    = blkStep 4 (blkStep 2 (blkStep 1 x0)) :=
  (canon_level (R := 32) (N := 16384) (h := 4) (m := 8) rfl inb_S32x16384_S32x8_0_0 arg2.view _
    (cover3 c arg1 harg1 arg2 x0) _ (fun r j => lvl3 _ r j)).trans (congrArg (blkStep 4) (canon3 c arg1 harg1 arg2 x0))

theorem canon5 : View.canon (kernelRun0_A.sl.H1_5 (F := Ideal) c arg1 harg1 arg2 x0)
    = blkStep 8 (blkStep 4 (blkStep 2 (blkStep 1 x0))) :=
  (canon_level (R := 32) (N := 16384) (h := 8) (m := 16) rfl inb_S32x16384_S32x16_0_0 arg2.view _
    (cover4 c arg1 harg1 arg2 x0) _ (fun r j => lvl4 _ r j)).trans (congrArg (blkStep 8) (canon4 c arg1 harg1 arg2 x0))

theorem canon6 : View.canon (kernelRun0_A.sl.H1_6 (F := Ideal) c arg1 harg1 arg2 x0)
    = blkStep 16 (blkStep 8 (blkStep 4 (blkStep 2 (blkStep 1 x0)))) :=
  (canon_level (R := 32) (N := 16384) (h := 16) (m := 32) rfl inb_S32x16384_S32x32_0_0 arg2.view _
    (cover5 c arg1 harg1 arg2 x0) _ (fun r j => lvl5 _ r j)).trans (congrArg (blkStep 16) (canon5 c arg1 harg1 arg2 x0))

theorem canon7 : View.canon (kernelRun0_A.sl.H1_7 (F := Ideal) c arg1 harg1 arg2 x0)
    = blkStep 32 (blkStep 16 (blkStep 8 (blkStep 4 (blkStep 2 (blkStep 1 x0))))) :=
  (canon_level (R := 32) (N := 16384) (h := 32) (m := 64) rfl inb_S32x16384_S32x64_0_0 arg2.view _
    (cover6 c arg1 harg1 arg2 x0) _ (fun r j => lvl6 _ r j)).trans (congrArg (blkStep 32) (canon6 c arg1 harg1 arg2 x0))

theorem canon8 : View.canon (kernelRun0_A.sl.H1_8 (F := Ideal) c arg1 harg1 arg2 x0)
    = blkStep 64 (blkStep 32 (blkStep 16 (blkStep 8 (blkStep 4 (blkStep 2 (blkStep 1 x0)))))) :=
  (canon_level (R := 32) (N := 16384) (h := 64) (m := 128) rfl inb_S32x16384_S32x128_0_0 arg2.view _
    (cover7 c arg1 harg1 arg2 x0) _ (fun r j => lvl7 _ r j)).trans (congrArg (blkStep 64) (canon7 c arg1 harg1 arg2 x0))

theorem canon9 : View.canon (kernelRun0_A.sl.H1_9 (F := Ideal) c arg1 harg1 arg2 x0)
    = blkStep 128 (blkStep 64 (blkStep 32 (blkStep 16 (blkStep 8 (blkStep 4 (blkStep 2 (blkStep 1 x0))))))) :=
  (canon_level (R := 32) (N := 16384) (h := 128) (m := 256) rfl inb_S32x16384_S32x256_0_0 arg2.view _
    (cover8 c arg1 harg1 arg2 x0) _ (fun r j => lvl8 _ r j)).trans (congrArg (blkStep 128) (canon8 c arg1 harg1 arg2 x0))

theorem canon10 : View.canon (kernelRun0_A.sl.H1_10 (F := Ideal) c arg1 harg1 arg2 x0)
    = blkStep 256 (blkStep 128 (blkStep 64 (blkStep 32 (blkStep 16 (blkStep 8 (blkStep 4 (blkStep 2
        (blkStep 1 x0)))))))) :=
  (canon_level (R := 32) (N := 16384) (h := 256) (m := 512) rfl inb_S32x16384_S32x512_0_0 arg2.view _
    (cover9 c arg1 harg1 arg2 x0) _ (fun r j => lvl9 _ r j)).trans (congrArg (blkStep 256) (canon9 c arg1 harg1 arg2 x0))

theorem canon11 : View.canon (kernelRun0_A.sl.H1_11 (F := Ideal) c arg1 harg1 arg2 x0)
    = blkStep 512 (blkStep 256 (blkStep 128 (blkStep 64 (blkStep 32 (blkStep 16 (blkStep 8 (blkStep 4 (blkStep 2
        (blkStep 1 x0))))))))) :=
  (canon_level (R := 32) (N := 16384) (h := 512) (m := 1024) rfl inb_S32x16384_S32x1024_0_0 arg2.view _
    (cover10 c arg1 harg1 arg2 x0) _ (fun r j => lvl10 _ r j)).trans (congrArg (blkStep 512) (canon10 c arg1 harg1 arg2 x0))

theorem canon12 : View.canon (kernelRun0_A.sl.H1_12 (F := Ideal) c arg1 harg1 arg2 x0)
    = blkStep 1024 (blkStep 512 (blkStep 256 (blkStep 128 (blkStep 64 (blkStep 32 (blkStep 16 (blkStep 8 (blkStep 4
        (blkStep 2 (blkStep 1 x0)))))))))) :=
  (canon_level (R := 32) (N := 16384) (h := 1024) (m := 2048) rfl inb_S32x16384_S32x2048_0_0 arg2.view _
    (cover11 c arg1 harg1 arg2 x0) _ (fun r j => lvl11 _ r j)).trans (congrArg (blkStep 1024) (canon11 c arg1 harg1 arg2 x0))

theorem canon13 : View.canon (kernelRun0_A.sl.H1_13 (F := Ideal) c arg1 harg1 arg2 x0)
    = blkStep 2048 (blkStep 1024 (blkStep 512 (blkStep 256 (blkStep 128 (blkStep 64 (blkStep 32 (blkStep 16 (blkStep 8
        (blkStep 4 (blkStep 2 (blkStep 1 x0))))))))))) :=
  (canon_level (R := 32) (N := 16384) (h := 2048) (m := 4096) rfl inb_S32x16384_S32x4096_0_0 arg2.view _
    (cover12 c arg1 harg1 arg2 x0) _ (fun r j => lvl12 _ r j)).trans (congrArg (blkStep 2048) (canon12 c arg1 harg1 arg2 x0))

theorem canon14 : View.canon (kernelRun0_A.sl.H1_14 (F := Ideal) c arg1 harg1 arg2 x0)
    = blkStep 4096 (blkStep 2048 (blkStep 1024 (blkStep 512 (blkStep 256 (blkStep 128 (blkStep 64 (blkStep 32
        (blkStep 16 (blkStep 8 (blkStep 4 (blkStep 2 (blkStep 1 x0)))))))))))) :=
  (canon_level (R := 32) (N := 16384) (h := 4096) (m := 8192) rfl inb_S32x16384_S32x8192_0_0 arg2.view _
    (cover13 c arg1 harg1 arg2 x0) _ (fun r j => lvl13 _ r j)).trans (congrArg (blkStep 4096) (canon13 c arg1 harg1 arg2 x0))

end Run

/-- What a run of the body leaves in the output block: the fourteen levels on every row of the input block. -/
theorem out_eq (c : Dev nD) (i : grid0.Coords) (arg1 : Memref sig .tc .vmem S32x16384 .f32) (harg1 : arg1.IsWhole)
    (arg2 : Memref sig .tc .vmem S32x16384 .f32) (harg2 : arg2.IsWhole) (x0 : Vec Ideal S32x16384 .f32) :
    out0_A_1 (F := Ideal) c i arg1 harg1 arg2 harg2 x0 = blkHaar x0 := by
  unfold out0_A_1
  rw [View.read_writes_eq_canon _ _ _ (cover0_A_1 c i arg1 harg1 arg2 harg2 x0)]
  unfold kernelRun0_A
  dsimp only
  exact (canon_level (R := 32) (N := 16384) (h := 8192) (m := 16384) rfl inb_S32x16384_S32x16384_0_0 arg2.view _
    (cover14 c arg1 harg1 arg2 x0) _ (fun r j => lvl14 _ r j)).trans (congrArg (blkStep 8192) (canon14 c arg1 harg1 arg2 x0))

end Cert.KernelIdeal.Block

end
-- ==== Proof.KernelValue.lean ====
/-
  The kernel's result array as one function of its argument array.

  The program reshapes x[32, 128, 16384] to 4096 rows, runs the body on the 128 blocks of 32 consecutive rows, each
  block written back where it was read, and reshapes the 4096 rows back. Point `t` of the grid reads and writes
  rows `32 t … 32 t + 31`, all 16384 columns; the body leaves in its block the transform of every row of the block
  it read; the blocks tile the array. So row `ρ` of the middle array ends as the transform of row `ρ` of the
  reshaped argument, and entry `(b, w, j)` of the result as the transform of row `(b, w)` of the argument at `j`
  (the two reshapes keep the row-major position, `ρ = 128 b + w`).
-/
import proofs.«416311_j40870908789396_4_alg».proof.Proof.KernelBlock
import Idealize.ShloMosaic.Lib.StableHlo.Run

set_option maxRecDepth 16384

noncomputable section

namespace Cert.KernelIdeal.KValue

open Cert.KernelIdeal Cert.KernelIdeal.Gen Cert.Haar
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The transform of a row depends only on the row's 16384 entries. -/
theorem haar_congr {f g : ℕ → EReal} (hfg : ∀ k, k < 16384 → f k = g k) : ∀ j, j < 16384 → haar f j = haar g j := by
  have h1 := lvl_congr (h := 1) (n := 16384) (by norm_num) hfg
  have h2 := lvl_congr (h := 2) (n := 16384) (by norm_num) h1
  have h3 := lvl_congr (h := 4) (n := 16384) (by norm_num) h2
  have h4 := lvl_congr (h := 8) (n := 16384) (by norm_num) h3
  have h5 := lvl_congr (h := 16) (n := 16384) (by norm_num) h4
  have h6 := lvl_congr (h := 32) (n := 16384) (by norm_num) h5
  have h7 := lvl_congr (h := 64) (n := 16384) (by norm_num) h6
  have h8 := lvl_congr (h := 128) (n := 16384) (by norm_num) h7
  have h9 := lvl_congr (h := 256) (n := 16384) (by norm_num) h8
  have h10 := lvl_congr (h := 512) (n := 16384) (by norm_num) h9
  have h11 := lvl_congr (h := 1024) (n := 16384) (by norm_num) h10
  have h12 := lvl_congr (h := 2048) (n := 16384) (by norm_num) h11
  have h13 := lvl_congr (h := 4096) (n := 16384) (by norm_num) h12
  exact lvl_congr (h := 8192) (n := 16384) (by norm_num) h13

/-- The middle array after the region, as a function of the middle array before it: every row transformed. -/
def rowsHaar (A : S4096x16384.Idx → EReal) : S4096x16384.Idx → EReal := fun i => haar (row2 A (i 0)) (i 1).val

/-- The printed index maps over the grid: point `t` sits at block row `t`, block column 0, for both windows. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Point `t` writes back block `t` of the rows' transforms of the middle array as the region finds it. -/
theorem flushed_eq (c : Dev nD) (t : Fin cfg0.N) :
    (dats m 0 c).flushed 1 t = ((cfg0.win 1).blk t).view.read (Elt Ideal) (rowsHaar (V m c main_v0)) := by
  show (cfg0.win 1).cut (grid0.coords t) ((dats m 0 c).after 1 t) = _
  rw [after0_1]
  unfold outsAt0
  rw [Block.out_eq]
  obtain ⟨e0, e1, e2, e3⟩ := idx_facts t
  funext y
  obtain ⟨r, j, rfl⟩ : ∃ (r : Fin 32) (j : Fin 16384), y = ix2 r j := ⟨y 0, y 1, eq_ix2 y⟩
  show blkHaar (iblk m c 0 t) (ix2 r j) = rowsHaar (V m c main_v0) (((cfg0.win 1).blk t).view.emb (ix2 r j))
  rw [blkHaar_apply]
  have hr : t.val * 32 + r.val < 4096 := by have := t.isLt; have := r.isLt; have : cfg0.N = 128 := N_0; omega
  have hemb : ((cfg0.win 1).blk t).view.emb (ix2 r j) = (ix2 ⟨t.val * 32 + r.val, hr⟩ j : S4096x16384.Idx) := by
    funext a; apply Fin.ext
    match a with
    | ⟨0, _⟩ => show win0_1.index t (0 : Fin 2) * 32 + 1 * r.val = t.val * 32 + r.val; omega
    | ⟨1, _⟩ => show win0_1.index t (1 : Fin 2) * 16384 + 1 * j.val = j.val; omega
  rw [hemb]
  show haar (row2 (iblk m c 0 t) r) j.val = haar (row2 (V m c main_v0) ⟨t.val * 32 + r.val, hr⟩) j.val
  refine haar_congr (fun k hk => ?_) j.val j.isLt
  rw [row2_lt _ r hk, row2_lt _ _ hk]
  show V m c main_v0 (((cfg0.win 0).blk t).view.emb (ix2 r ⟨k, hk⟩)) = _
  refine congrArg (V m c main_v0) ?_
  funext a; apply Fin.ext
  match a with
  | ⟨0, _⟩ => show win0_0.index t (0 : Fin 2) * 32 + 1 * r.val = t.val * 32 + r.val; omega
  | ⟨1, _⟩ => show win0_0.index t (1 : Fin 2) * 16384 + 1 * k = k; omega

/-- An index of the middle array is in point `t`'s block iff each coordinate is in the block's range on its axis. -/
theorem mem_blk (t : Fin cfg0.N) (i : S4096x16384.Idx) :
    i ∈ ((cfg0.win 1).blk t).view.set ↔ ∀ a : Fin 2, win0_1.index t a * S32x16384.size a ≤ (i a).val ∧ (i a).val < win0_1.index t a * S32x16384.size a + S32x16384.size a := by
  show i ∈ ((View.whole main_v1).slice (win0_1.rect t)).set ↔ _
  rw [View.set_slice_whole, Rect.mem_set_unit]
  exact Iff.rfl

/-- Every row is in the block of the point whose number is the row's over 32. -/
theorem cover (i : S4096x16384.Idx) : ∃ t : Fin cfg0.N, (cfg0.win 1).flush t = true ∧ i ∈ ((cfg0.win 1).blk t).view.set := by
  have hi0 : (i 0).val < 4096 := (i 0).isLt
  have hi1 : (i 1).val < 16384 := (i 1).isLt
  have hN : cfg0.N = 128 := N_0
  let t : Fin cfg0.N := ⟨(i 0).val / 32, by omega⟩
  obtain ⟨e0, e1, e2, e3⟩ := idx_facts t
  have e2' : win0_1.index t (0 : Fin 2) = (i 0).val / 32 := e2
  refine ⟨t, flush0_1 t, ?_⟩
  rw [mem_blk]
  intro a
  match a with
  | ⟨0, _⟩ => show win0_1.index t (0 : Fin 2) * 32 ≤ (i 0).val ∧ (i 0).val < win0_1.index t (0 : Fin 2) * 32 + 32; omega
  | ⟨1, _⟩ => show win0_1.index t (1 : Fin 2) * 16384 ≤ (i 1).val ∧ (i 1).val < win0_1.index t (1 : Fin 2) * 16384 + 16384; omega

/-- The middle array after the region. -/
theorem final (c : Dev nD) : (dats m 0 c).arrAt 1 cfg0.N = rowsHaar (V m c main_v0) :=
  (dats m 0 c).arrAt_eq_of_cover 1 (rowsHaar (V m c main_v0)) (fun t _ => flushed_eq m c t) cover

/-! ## The reshapes around the region -/

/-- The middle array as the region finds it: the argument, reshaped to 4096 rows. -/
theorem V_main_v0 (c : Dev nD) : (V m c main_v0 : S4096x16384.Idx → EReal)
    = shapeCast S4096x16384 (m ((c : Thread nD τ).loc main_arg0)) shapeCasts_S32x128x16384_S4096x16384 := by
  dsimp only [Gen.V, Gen.V0]
  simp only [Gen.hostOps0, List.flatten_cons, List.flatten_nil, List.append_nil]
  after_results
  rfl

/-- The result buffer after the run: the middle array after the region, reshaped back. -/
theorem tail_eq (c : Dev nD) : (Pipeline.afterTail₀ cfgs (dats m) 0 (V0 m) [hostOps1] c main_v2 : S32x128x16384.Idx → EReal)
    = shapeCast S32x128x16384 ((dats m 0 c).arrAt 1 cfg0.N) shapeCasts_S4096x16384_S32x128x16384 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 1
  funext i
  show shapeCast S32x128x16384 (Pipeline.withArrays spec0 c (V0 m c) (fun w => (dats m 0 c).arrAt w cfg0.N)
    (Proc.devRef .tc (Pipeline.arrRef spec0 1))) shapeCasts_S4096x16384_S32x128x16384 i = _
  rw [e]

/-- The transform of each last-axis row of a rank-3 array. -/
def rows3Haar (X : S32x128x16384.Idx → EReal) : S32x128x16384.Idx → EReal :=
  fun i => haar (row3 X (i 0) (i 1)) (i 2).val

/-- Reshaping to rows, transforming every row and reshaping back transforms every last-axis row: row `128 b + w` of
    the reshaped array is row `(b, w)` of the array. -/
theorem reshape_rows (X : S32x128x16384.Idx → EReal) :
    shapeCast S32x128x16384 (rowsHaar (shapeCast S4096x16384 X shapeCasts_S32x128x16384_S4096x16384))
      shapeCasts_S4096x16384_S32x128x16384 = rows3Haar X := by
  funext i
  obtain ⟨b, w, j, rfl⟩ : ∃ (b : Fin 32) (w : Fin 128) (j : Fin 16384), i = ix3 b w j := ⟨i 0, i 1, i 2, eq_ix3 i⟩
  have hr : b.val * 128 + w.val < 4096 := by have := b.isLt; have := w.isLt; omega
  refine (shapeCast_apply _ shapeCasts_S4096x16384_S32x128x16384 (ix3 b w j) (ix2 ⟨b.val * 128 + w.val, hr⟩ j) ?_).trans ?_
  · rw [Shape.rowMajor_val_two, Shape.rowMajor_val_three]
    rfl
  · show haar (row2 (shapeCast S4096x16384 X shapeCasts_S32x128x16384_S4096x16384) ⟨b.val * 128 + w.val, hr⟩) j.val
      = haar (row3 X b w) j.val
    refine haar_congr (fun k hk => ?_) j.val j.isLt
    rw [row2_lt _ _ hk, row3_lt _ _ _ hk]
    refine shapeCast_apply _ shapeCasts_S32x128x16384_S4096x16384 _ (ix3 b w ⟨k, hk⟩) ?_
    rw [Shape.rowMajor_val_two, Shape.rowMajor_val_three]
    rfl

/-! ## The run, read -/

/-- Every weakly fair execution of the idealized kernel program terminates with the result buffer at the transform of
    every last-axis row of the argument, the argument unchanged. -/
theorem run : θ_run defs (onTc (τ := τ) (main (F := Ideal))) ⟨m, fun _ => 0, ρ⟩ fun r => ∀ c : Dev nD,
      r.2.mem ((c : Thread nD τ).loc main_v2) = rows3Haar (m ((c : Thread nD τ).loc main_arg0))
      ∧ r.2.mem ((c : Thread nD τ).loc main_arg0) = m ((c : Thread nD τ).loc main_arg0) :=
  (θ_run defs _ _).mono (fun r h c =>
    ⟨((h c).2 main_v2 (Pipeline.mem_restRefs_of main_v2 (by decide) (by decide))).trans (by
        rw [tail_eq, final, V_main_v0, reshape_rows]),
      ((h c).2 main_arg0 (Pipeline.mem_restRefs_of main_arg0 (by decide) (by decide))).trans (W_main_arg0 m (dats m) c)⟩)
    (run_main m ρ)

end Cert.KernelIdeal.KValue

end
-- ==== Proof.LevelHost.lean ====
/-
  One level of the transform as the reference lays it out on a whole rank-3 array, read at an index.

  The reference cuts the first 2 h entries of every last-axis row out of the array, cuts that block into its two halves
  a and d, scales their sum and their difference, puts each on a new unit last axis, concatenates the two there and
  flattens the pair of last axes, so that entry j of the flattened row is entry (j / 2, j % 2) of the stack: the sum
  at an even j, the difference at an odd one, both at j / 2. The rest of the row, from 2 h on, is cut out of the
  array as it is and glued back on behind. Read at (b, w, j) this is the level of the row (b, w) at j.
-/
import Idealize.ShloMosaic.PureOps.Ideal
import Idealize.ShloMosaic.Lib.ValueIdx
import Idealize.ShloMosaic.Lib.ValueLayout
import Idealize.ShloMosaic.Lib.Pipeline.Value
import proofs.«416311_j40870908789396_4_alg».proof.Proof.Haar

noncomputable section

namespace Cert.Haar

open Idealize.ShloMosaic Idealize.ShloMosaic.ValueIdx

section Host
variable {A B N h m t : ℕ}

/-- A rank-3 array cut along its last axis from o, at (b, w, j): the source at (b, w, o + j). -/
theorem slice3_last_apply {α : Type} {n n' : ℕ} (o : ℕ) (X : (⟨3, ![A, B, n]⟩ : Shape).Idx → α)
    (hs : (⟨3, ![A, B, n]⟩ : Shape).Slices ![0, 0, o] ⟨3, ![A, B, n']⟩)
    (b : Fin A) (w : Fin B) (j : Fin n') (k : Fin n) (hk : k.val = o + j.val) :
    extractStridedSlice (⟨3, ![A, B, n']⟩ : Shape) ![0, 0, o] X hs (ix3 b w j) = X (ix3 b w k) := by
  refine extractStridedSlice_apply _ X hs (ix3 b w j) (ix3 b w k) (fun ax => ?_)
  match ax with
  | ⟨0, _⟩ => exact (Nat.zero_add _).symm
  | ⟨1, _⟩ => exact (Nat.zero_add _).symm
  | ⟨2, _⟩ => exact hk

/-- An array put on a new unit last axis, at (b, w, k, 0): the array at (b, w, k). A coordinate on an axis of
    extent one is zero, which is what the broadcast reads there. -/
theorem addUnit3_apply {α : Type}
    (hb : (⟨3, ![A, B, h]⟩ : Shape).BroadcastsInDim ⟨4, ![A, B, h, 1]⟩ (![0, 1, 2] : Fin 3 → Fin 4))
    (p : (⟨3, ![A, B, h]⟩ : Shape).Idx → α) (b : Fin A) (w : Fin B) (k : Fin h) (z : Fin 1) :
    broadcastInDim (⟨4, ![A, B, h, 1]⟩ : Shape) ![0, 1, 2] hb p (ix4 b w k z) = p (ix3 b w k) := by
  refine broadcastInDim_apply _ hb p (ix4 b w k z) (ix3 b w k) (fun a => ?_)
  match a with
  | ⟨0, _⟩ =>
    show b.val = if A = 1 then 0 else b.val
    split
    · have := b.isLt; omega
    · rfl
  | ⟨1, _⟩ =>
    show w.val = if B = 1 then 0 else w.val
    split
    · have := w.isLt; omega
    · rfl
  | ⟨2, _⟩ =>
    show k.val = if h = 1 then 0 else k.val
    split
    · have := k.isLt; omega
    · rfl

/-- Two [A, B, h] arrays, each on a new unit last axis, concatenated there and flattened to [A, B, 2 h], at
    (b, w, j): the first at (b, w, j / 2) when j is even, the second there when j is odd. The flattened position
    ((b B + w) h + k) 2 + e equals (b B + w) (2 h) + j exactly when k = j / 2 and e = j % 2. -/
theorem interleave3_apply {α : Type} (hm : m = 2 * h)
    (hb : (⟨3, ![A, B, h]⟩ : Shape).BroadcastsInDim ⟨4, ![A, B, h, 1]⟩ (![0, 1, 2] : Fin 3 → Fin 4))
    (hcat : Shape.Concatenates [(⟨4, ![A, B, h, 1]⟩ : Shape), ⟨4, ![A, B, h, 1]⟩] ⟨4, ![A, B, h, 2]⟩ 3)
    (hc : (⟨4, ![A, B, h, 2]⟩ : Shape).ShapeCasts ⟨3, ![A, B, m]⟩)
    (p q : (⟨3, ![A, B, h]⟩ : Shape).Idx → α) (b : Fin A) (w : Fin B) (j : Fin m) (k : Fin h)
    (hk : k.val = j.val / 2) :
    shapeCast (⟨3, ![A, B, m]⟩ : Shape)
      (concatenate (⟨4, ![A, B, h, 2]⟩ : Shape) 3
        [⟨⟨4, ![A, B, h, 1]⟩, broadcastInDim (⟨4, ![A, B, h, 1]⟩ : Shape) ![0, 1, 2] hb p⟩,
         ⟨⟨4, ![A, B, h, 1]⟩, broadcastInDim (⟨4, ![A, B, h, 1]⟩ : Shape) ![0, 1, 2] hb q⟩] hcat) hc (ix3 b w j)
      = if j.val % 2 = 0 then p (ix3 b w k) else q (ix3 b w k) := by
  have hlt : j.val % 2 < 2 := Nat.mod_lt _ (by norm_num)
  refine (shapeCast_apply _ hc (ix3 b w j) (ix4 b w k ⟨j.val % 2, hlt⟩) ?_).trans ?_
  · rw [Shape.rowMajor_val_four, Shape.rowMajor_val_three]
    show ((b.val * B + w.val) * h + k.val) * 2 + j.val % 2 = (b.val * B + w.val) * m + j.val
    subst hm
    have e : (b.val * B + w.val) * (2 * h) = 2 * ((b.val * B + w.val) * h) := by ring
    rw [hk, e]; omega
  · by_cases he : j.val % 2 = 0
    · rw [if_pos he]
      refine (concatenate_pair_apply_left 3 _ _ hcat (ix4 b w k ⟨j.val % 2, hlt⟩) rfl
        (ix4 b w k ⟨0, by norm_num⟩) ?_).trans ?_
      · intro a
        match a with
        | ⟨0, _⟩ => rfl
        | ⟨1, _⟩ => rfl
        | ⟨2, _⟩ => rfl
        | ⟨3, _⟩ => exact he.symm
      · exact addUnit3_apply hb p b w k _
    · rw [if_neg he]
      refine (concatenate_pair_apply_right 3 _ _ hcat (ix4 b w k ⟨j.val % 2, hlt⟩) rfl rfl
        (ix4 b w k ⟨0, by norm_num⟩) ?_ ?_).trans ?_
      · intro a ha
        match a, ha with
        | ⟨0, _⟩, _ => rfl
        | ⟨1, _⟩, _ => rfl
        | ⟨2, _⟩, _ => rfl
        | ⟨3, _⟩, ha => exact absurd rfl ha
      · show 0 + 1 = j.val % 2
        omega
      · exact addUnit3_apply hb q b w k _

/-- The level laid out over any two half blocks a and d that read the row (b, w) of x at k and at h + k: at
    (b, w, j) it is the level of that row at j. Below 2 h the entry comes from the flattened stack, from 2 h on from
    the tail cut at 2 h. -/
theorem host_level_core (hm : m = 2 * h) (hN : m + t = N)
    (hb0 : (⟨0, ![]⟩ : Shape).BroadcastsInDim ⟨3, ![A, B, h]⟩ (![] : Fin 0 → Fin 3))
    (hb1 : (⟨3, ![A, B, h]⟩ : Shape).BroadcastsInDim ⟨4, ![A, B, h, 1]⟩ (![0, 1, 2] : Fin 3 → Fin 4))
    (hcat : Shape.Concatenates [(⟨4, ![A, B, h, 1]⟩ : Shape), ⟨4, ![A, B, h, 1]⟩] ⟨4, ![A, B, h, 2]⟩ 3)
    (hc : (⟨4, ![A, B, h, 2]⟩ : Shape).ShapeCasts ⟨3, ![A, B, m]⟩)
    (hst : (⟨3, ![A, B, N]⟩ : Shape).Slices ![0, 0, m] ⟨3, ![A, B, t]⟩)
    (hcat2 : Shape.Concatenates [(⟨3, ![A, B, m]⟩ : Shape), ⟨3, ![A, B, t]⟩] ⟨3, ![A, B, N]⟩ 2)
    (x : FVec Ideal ⟨3, ![A, B, N]⟩ .f32) (a d : FVec Ideal ⟨3, ![A, B, h]⟩ .f32) (b : Fin A) (w : Fin B)
    (ha : ∀ k : Fin h, a (ix3 b w k) = row3 x b w k.val)
    (hd : ∀ k : Fin h, d (ix3 b w k) = row3 x b w (h + k.val)) (j : Fin N) :
    concatenate (⟨3, ![A, B, N]⟩ : Shape) 2
      [⟨⟨3, ![A, B, m]⟩, shapeCast (⟨3, ![A, B, m]⟩ : Shape)
          (concatenate (⟨4, ![A, B, h, 2]⟩ : Shape) 3
            [⟨⟨4, ![A, B, h, 1]⟩, broadcastInDim (⟨4, ![A, B, h, 1]⟩ : Shape) ![0, 1, 2] hb1
                (mulf (addf a d) (broadcastInDim (⟨3, ![A, B, h]⟩ : Shape) ![] hb0
                  (constant ⟨0, ![]⟩ .f32 0x3F3504F3#32)))⟩,
             ⟨⟨4, ![A, B, h, 1]⟩, broadcastInDim (⟨4, ![A, B, h, 1]⟩ : Shape) ![0, 1, 2] hb1
                (mulf (subf a d) (broadcastInDim (⟨3, ![A, B, h]⟩ : Shape) ![] hb0
                  (constant ⟨0, ![]⟩ .f32 0x3F3504F3#32)))⟩] hcat) hc⟩,
       ⟨⟨3, ![A, B, t]⟩, extractStridedSlice (⟨3, ![A, B, t]⟩ : Shape) ![0, 0, m] x hst⟩] hcat2 (ix3 b w j)
      = lvl h (row3 x b w) j.val := by
  by_cases hj : j.val < m
  · refine (concatenate_pair_apply_left 2 _ _ hcat2 (ix3 b w j) rfl (ix3 b w ⟨j.val, hj⟩) ?_).trans ?_
    · intro ax
      match ax with
      | ⟨0, _⟩ => rfl
      | ⟨1, _⟩ => rfl
      | ⟨2, _⟩ => rfl
    · have hj2 : j.val < 2 * h := hm ▸ hj
      have hk : j.val / 2 < h := by omega
      refine (interleave3_apply hm hb1 hcat hc _ _ b w ⟨j.val, hj⟩ ⟨j.val / 2, hk⟩ rfl).trans ?_
      by_cases he : j.val % 2 = 0
      · rw [if_pos he, lvl_lt_even _ hj2 he, mulf_apply, addf_apply, ha, hd]
        rfl
      · rw [if_neg he, lvl_lt_odd _ hj2 he, mulf_apply, subf_apply, ha, hd]
        rfl
  · have hjt : j.val - m < t := by have := j.isLt; omega
    refine (concatenate_pair_apply_right 2 _ _ hcat2 (ix3 b w j) rfl rfl (ix3 b w ⟨j.val - m, hjt⟩) ?_ ?_).trans ?_
    · intro ax hax
      match ax, hax with
      | ⟨0, _⟩, _ => rfl
      | ⟨1, _⟩, _ => rfl
      | ⟨2, _⟩, hax => exact absurd rfl hax
    · show j.val - m + m = j.val
      omega
    · rw [slice3_last_apply m x hst b w ⟨j.val - m, hjt⟩ j (by show j.val = m + (j.val - m); omega),
        lvl_ge _ (by omega), row3_lt x b w j.isLt]

/-- The level as the reference writes it when 2 h is less than the row: the block of the first 2 h entries is cut
    out of x first and the two halves out of that block. -/
theorem host_level (hm : m = 2 * h) (hN : m + t = N)
    (hsm : (⟨3, ![A, B, N]⟩ : Shape).Slices ![0, 0, 0] ⟨3, ![A, B, m]⟩)
    (hs0 : (⟨3, ![A, B, m]⟩ : Shape).Slices ![0, 0, 0] ⟨3, ![A, B, h]⟩)
    (hs1 : (⟨3, ![A, B, m]⟩ : Shape).Slices ![0, 0, h] ⟨3, ![A, B, h]⟩)
    (hb0 : (⟨0, ![]⟩ : Shape).BroadcastsInDim ⟨3, ![A, B, h]⟩ (![] : Fin 0 → Fin 3))
    (hb1 : (⟨3, ![A, B, h]⟩ : Shape).BroadcastsInDim ⟨4, ![A, B, h, 1]⟩ (![0, 1, 2] : Fin 3 → Fin 4))
    (hcat : Shape.Concatenates [(⟨4, ![A, B, h, 1]⟩ : Shape), ⟨4, ![A, B, h, 1]⟩] ⟨4, ![A, B, h, 2]⟩ 3)
    (hc : (⟨4, ![A, B, h, 2]⟩ : Shape).ShapeCasts ⟨3, ![A, B, m]⟩)
    (hst : (⟨3, ![A, B, N]⟩ : Shape).Slices ![0, 0, m] ⟨3, ![A, B, t]⟩)
    (hcat2 : Shape.Concatenates [(⟨3, ![A, B, m]⟩ : Shape), ⟨3, ![A, B, t]⟩] ⟨3, ![A, B, N]⟩ 2)
    (x : FVec Ideal ⟨3, ![A, B, N]⟩ .f32) (b : Fin A) (w : Fin B) (j : Fin N) :
    concatenate (⟨3, ![A, B, N]⟩ : Shape) 2
      [⟨⟨3, ![A, B, m]⟩, shapeCast (⟨3, ![A, B, m]⟩ : Shape)
          (concatenate (⟨4, ![A, B, h, 2]⟩ : Shape) 3
            [⟨⟨4, ![A, B, h, 1]⟩, broadcastInDim (⟨4, ![A, B, h, 1]⟩ : Shape) ![0, 1, 2] hb1
                (mulf (addf
                    (extractStridedSlice (⟨3, ![A, B, h]⟩ : Shape) ![0, 0, 0]
                      (extractStridedSlice (⟨3, ![A, B, m]⟩ : Shape) ![0, 0, 0] x hsm) hs0)
                    (extractStridedSlice (⟨3, ![A, B, h]⟩ : Shape) ![0, 0, h]
                      (extractStridedSlice (⟨3, ![A, B, m]⟩ : Shape) ![0, 0, 0] x hsm) hs1))
                  (broadcastInDim (⟨3, ![A, B, h]⟩ : Shape) ![] hb0 (constant ⟨0, ![]⟩ .f32 0x3F3504F3#32)))⟩,
             ⟨⟨4, ![A, B, h, 1]⟩, broadcastInDim (⟨4, ![A, B, h, 1]⟩ : Shape) ![0, 1, 2] hb1
                (mulf (subf
                    (extractStridedSlice (⟨3, ![A, B, h]⟩ : Shape) ![0, 0, 0]
                      (extractStridedSlice (⟨3, ![A, B, m]⟩ : Shape) ![0, 0, 0] x hsm) hs0)
                    (extractStridedSlice (⟨3, ![A, B, h]⟩ : Shape) ![0, 0, h]
                      (extractStridedSlice (⟨3, ![A, B, m]⟩ : Shape) ![0, 0, 0] x hsm) hs1))
                  (broadcastInDim (⟨3, ![A, B, h]⟩ : Shape) ![] hb0 (constant ⟨0, ![]⟩ .f32 0x3F3504F3#32)))⟩] hcat) hc⟩,
       ⟨⟨3, ![A, B, t]⟩, extractStridedSlice (⟨3, ![A, B, t]⟩ : Shape) ![0, 0, m] x hst⟩] hcat2 (ix3 b w j)
      = lvl h (row3 x b w) j.val := by
  refine host_level_core hm hN hb0 hb1 hcat hc hst hcat2 x _ _ b w (fun k => ?_) (fun k => ?_) j
  · have hkm : k.val < m := by have := k.isLt; omega
    have hkN : k.val < N := by omega
    rw [row3_lt x b w hkN, slice3_last_apply 0 _ hs0 b w k ⟨k.val, hkm⟩ (Nat.zero_add _).symm,
      slice3_last_apply 0 x hsm b w ⟨k.val, hkm⟩ ⟨k.val, hkN⟩ (Nat.zero_add _).symm]
  · have hkm : h + k.val < m := by have := k.isLt; omega
    have hkN : h + k.val < N := by omega
    rw [row3_lt x b w hkN, slice3_last_apply h _ hs1 b w k ⟨h + k.val, hkm⟩ rfl,
      slice3_last_apply 0 x hsm b w ⟨h + k.val, hkm⟩ ⟨h + k.val, hkN⟩ (Nat.zero_add _).symm]

/-- The last level, where 2 h is the whole row: the two halves are cut out of x itself, and the tail is empty. -/
theorem host_level_top (hm : m = 2 * h) (hN : m + t = N)
    (hs0 : (⟨3, ![A, B, N]⟩ : Shape).Slices ![0, 0, 0] ⟨3, ![A, B, h]⟩)
    (hs1 : (⟨3, ![A, B, N]⟩ : Shape).Slices ![0, 0, h] ⟨3, ![A, B, h]⟩)
    (hb0 : (⟨0, ![]⟩ : Shape).BroadcastsInDim ⟨3, ![A, B, h]⟩ (![] : Fin 0 → Fin 3))
    (hb1 : (⟨3, ![A, B, h]⟩ : Shape).BroadcastsInDim ⟨4, ![A, B, h, 1]⟩ (![0, 1, 2] : Fin 3 → Fin 4))
    (hcat : Shape.Concatenates [(⟨4, ![A, B, h, 1]⟩ : Shape), ⟨4, ![A, B, h, 1]⟩] ⟨4, ![A, B, h, 2]⟩ 3)
    (hc : (⟨4, ![A, B, h, 2]⟩ : Shape).ShapeCasts ⟨3, ![A, B, m]⟩)
    (hst : (⟨3, ![A, B, N]⟩ : Shape).Slices ![0, 0, m] ⟨3, ![A, B, t]⟩)
    (hcat2 : Shape.Concatenates [(⟨3, ![A, B, m]⟩ : Shape), ⟨3, ![A, B, t]⟩] ⟨3, ![A, B, N]⟩ 2)
    (x : FVec Ideal ⟨3, ![A, B, N]⟩ .f32) (b : Fin A) (w : Fin B) (j : Fin N) :
    concatenate (⟨3, ![A, B, N]⟩ : Shape) 2
      [⟨⟨3, ![A, B, m]⟩, shapeCast (⟨3, ![A, B, m]⟩ : Shape)
          (concatenate (⟨4, ![A, B, h, 2]⟩ : Shape) 3
            [⟨⟨4, ![A, B, h, 1]⟩, broadcastInDim (⟨4, ![A, B, h, 1]⟩ : Shape) ![0, 1, 2] hb1
                (mulf (addf (extractStridedSlice (⟨3, ![A, B, h]⟩ : Shape) ![0, 0, 0] x hs0)
                    (extractStridedSlice (⟨3, ![A, B, h]⟩ : Shape) ![0, 0, h] x hs1))
                  (broadcastInDim (⟨3, ![A, B, h]⟩ : Shape) ![] hb0 (constant ⟨0, ![]⟩ .f32 0x3F3504F3#32)))⟩,
             ⟨⟨4, ![A, B, h, 1]⟩, broadcastInDim (⟨4, ![A, B, h, 1]⟩ : Shape) ![0, 1, 2] hb1
                (mulf (subf (extractStridedSlice (⟨3, ![A, B, h]⟩ : Shape) ![0, 0, 0] x hs0)
                    (extractStridedSlice (⟨3, ![A, B, h]⟩ : Shape) ![0, 0, h] x hs1))
                  (broadcastInDim (⟨3, ![A, B, h]⟩ : Shape) ![] hb0 (constant ⟨0, ![]⟩ .f32 0x3F3504F3#32)))⟩] hcat) hc⟩,
       ⟨⟨3, ![A, B, t]⟩, extractStridedSlice (⟨3, ![A, B, t]⟩ : Shape) ![0, 0, m] x hst⟩] hcat2 (ix3 b w j)
      = lvl h (row3 x b w) j.val := by
  refine host_level_core hm hN hb0 hb1 hcat hc hst hcat2 x _ _ b w (fun k => ?_) (fun k => ?_) j
  · have hkN : k.val < N := by have := k.isLt; omega
    rw [row3_lt x b w hkN, slice3_last_apply 0 x hs0 b w k ⟨k.val, hkN⟩ (Nat.zero_add _).symm]
  · have hkN : h + k.val < N := by have := k.isLt; omega
    rw [row3_lt x b w hkN, slice3_last_apply h x hs1 b w k ⟨h + k.val, hkN⟩ rfl]

/-- One link of the chain of levels: if an array X is, entry by entry, the level of half-width h of the rows of Y,
    and the row (b, w) of Y agrees below the row length with a sequence g, then the row (b, w) of X agrees
    there with the level of g. -/
theorem row3_level_step (hN : 2 * h ≤ N) (X Y : (⟨3, ![A, B, N]⟩ : Shape).Idx → EReal)
    (hXY : ∀ (b : Fin A) (w : Fin B) (j : Fin N), X (ix3 b w j) = lvl h (row3 Y b w) j.val)
    (b : Fin A) (w : Fin B) (g : ℕ → EReal) (hY : ∀ k, k < N → row3 Y b w k = g k) :
    ∀ k, k < N → row3 X b w k = lvl h g k := by
  intro k hk
  rw [row3_lt X b w hk, hXY b w ⟨k, hk⟩]
  exact lvl_congr hN hY k hk

end Host

end Cert.Haar

end
-- ==== Proof.RefValue.lean ====
/-
  The reference's result, entry by entry, is the fourteen-level transform of the argument's rows.

  The reference builds its result through thirteen whole arrays, each the next level of the one before, and one last
  level written in place. Each array is read at (b, w, j) as the level of the matching half-width of the row (b, w)
  of its predecessor; a level depends on its row only below the row length, so these readings compose: the row of
  the k-th array agrees there with the k levels applied to the argument's row, and the last level applied to the
  thirteenth array's row is the whole transform.
-/
import proofs.«416311_j40870908789396_4_alg».proof.Proof.LevelHost
import proofs.«416311_j40870908789396_4_alg».proof.Proof.Gen.ReferenceIdeal.Run

noncomputable section

namespace Cert.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.Haar

variable (V0 : Valuation τ sig (Elt Ideal)) (b : Fin 32) (w : Fin 128) (j : Fin 16384)

/-! Each of the thirteen arrays at an entry: the level of its half-width on the row of the array before. -/

theorem level01 : res_main_v14 V0 (ix3 b w j) = lvl 1 (row3 (V0 (Proc.devRef .tc main_arg0)) b w) j.val :=
  host_level (h := 1) (m := 2) (t := 16382) rfl rfl _ _ _ _ _ _ _ _ _ (V0 (Proc.devRef .tc main_arg0)) b w j

theorem level02 : res_main_v29 V0 (ix3 b w j) = lvl 2 (row3 (res_main_v14 V0) b w) j.val :=
  host_level (h := 2) (m := 4) (t := 16380) rfl rfl _ _ _ _ _ _ _ _ _ (res_main_v14 V0) b w j

theorem level03 : res_main_v44 V0 (ix3 b w j) = lvl 4 (row3 (res_main_v29 V0) b w) j.val :=
  host_level (h := 4) (m := 8) (t := 16376) rfl rfl _ _ _ _ _ _ _ _ _ (res_main_v29 V0) b w j

theorem level04 : res_main_v59 V0 (ix3 b w j) = lvl 8 (row3 (res_main_v44 V0) b w) j.val :=
  host_level (h := 8) (m := 16) (t := 16368) rfl rfl _ _ _ _ _ _ _ _ _ (res_main_v44 V0) b w j

theorem level05 : res_main_v74 V0 (ix3 b w j) = lvl 16 (row3 (res_main_v59 V0) b w) j.val :=
  host_level (h := 16) (m := 32) (t := 16352) rfl rfl _ _ _ _ _ _ _ _ _ (res_main_v59 V0) b w j

theorem level06 : res_main_v89 V0 (ix3 b w j) = lvl 32 (row3 (res_main_v74 V0) b w) j.val :=
  host_level (h := 32) (m := 64) (t := 16320) rfl rfl _ _ _ _ _ _ _ _ _ (res_main_v74 V0) b w j

theorem level07 : res_main_v104 V0 (ix3 b w j) = lvl 64 (row3 (res_main_v89 V0) b w) j.val :=
  host_level (h := 64) (m := 128) (t := 16256) rfl rfl _ _ _ _ _ _ _ _ _ (res_main_v89 V0) b w j

theorem level08 : res_main_v119 V0 (ix3 b w j) = lvl 128 (row3 (res_main_v104 V0) b w) j.val :=
  host_level (h := 128) (m := 256) (t := 16128) rfl rfl _ _ _ _ _ _ _ _ _ (res_main_v104 V0) b w j

theorem level09 : res_main_v134 V0 (ix3 b w j) = lvl 256 (row3 (res_main_v119 V0) b w) j.val :=
  host_level (h := 256) (m := 512) (t := 15872) rfl rfl _ _ _ _ _ _ _ _ _ (res_main_v119 V0) b w j

theorem level10 : res_main_v149 V0 (ix3 b w j) = lvl 512 (row3 (res_main_v134 V0) b w) j.val :=
  host_level (h := 512) (m := 1024) (t := 15360) rfl rfl _ _ _ _ _ _ _ _ _ (res_main_v134 V0) b w j

theorem level11 : res_main_v164 V0 (ix3 b w j) = lvl 1024 (row3 (res_main_v149 V0) b w) j.val :=
  host_level (h := 1024) (m := 2048) (t := 14336) rfl rfl _ _ _ _ _ _ _ _ _ (res_main_v149 V0) b w j

theorem level12 : res_main_v179 V0 (ix3 b w j) = lvl 2048 (row3 (res_main_v164 V0) b w) j.val :=
  host_level (h := 2048) (m := 4096) (t := 12288) rfl rfl _ _ _ _ _ _ _ _ _ (res_main_v164 V0) b w j

theorem level13 : res_main_v194 V0 (ix3 b w j) = lvl 4096 (row3 (res_main_v179 V0) b w) j.val :=
  host_level (h := 4096) (m := 8192) (t := 8192) rfl rfl _ _ _ _ _ _ _ _ _ (res_main_v179 V0) b w j

/-- Below the row length the row (b, w) of the thirteenth array is the first thirteen levels of the argument's
    row: the thirteen readings above, each carried through the later levels. -/
theorem row13 : ∀ k, k < 16384 → row3 (res_main_v194 V0) b w k
    = lvl 4096 (lvl 2048 (lvl 1024 (lvl 512 (lvl 256 (lvl 128 (lvl 64 (lvl 32 (lvl 16 (lvl 8 (lvl 4 (lvl 2
        (lvl 1 (row3 (V0 (Proc.devRef .tc main_arg0)) b w))))))))))))) k :=
  row3_level_step (by norm_num) _ _ (level13 V0) b w _ <|
  row3_level_step (by norm_num) _ _ (level12 V0) b w _ <|
  row3_level_step (by norm_num) _ _ (level11 V0) b w _ <|
  row3_level_step (by norm_num) _ _ (level10 V0) b w _ <|
  row3_level_step (by norm_num) _ _ (level09 V0) b w _ <|
  row3_level_step (by norm_num) _ _ (level08 V0) b w _ <|
  row3_level_step (by norm_num) _ _ (level07 V0) b w _ <|
  row3_level_step (by norm_num) _ _ (level06 V0) b w _ <|
  row3_level_step (by norm_num) _ _ (level05 V0) b w _ <|
  row3_level_step (by norm_num) _ _ (level04 V0) b w _ <|
  row3_level_step (by norm_num) _ _ (level03 V0) b w _ <|
  row3_level_step (by norm_num) _ _ (level02 V0) b w _ <|
  row3_level_step (by norm_num) _ _ (level01 V0) b w _ (fun _ _ => rfl)

/-- The reference's result: at every entry, the transform of the argument's row. -/
theorem result_eq (V0 : Valuation τ sig (Elt Ideal)) :
    concatenate S32x128x16384 2 [⟨S32x128x16384, (shapeCast _ (concatenate S32x128x8192x2 3 [⟨S32x128x8192x1, (broadcastInDim S32x128x8192x1 ![0, 1, 2] bcast_S32x128x8192_S32x128x8192x1_0_1_2 (mulf (addf (res_main_v195 V0) (res_main_v196 V0)) (broadcastInDim S32x128x8192 ![] bcast_S_S32x128x8192 (constant S_ .f32 0x3F3504F3#32))))⟩, ⟨S32x128x8192x1, (broadcastInDim S32x128x8192x1 ![0, 1, 2] bcast_S32x128x8192_S32x128x8192x1_0_1_2 (mulf (subf (res_main_v195 V0) (res_main_v196 V0)) (broadcastInDim S32x128x8192 ![] bcast_S_S32x128x8192 (constant S_ .f32 0x3F3504F3#32))))⟩] concatenates_S32x128x8192x1_S32x128x8192x1_S32x128x8192x2_d3) shapeCasts_S32x128x8192x2_S32x128x16384)⟩, ⟨S32x128x0, (extractStridedSlice S32x128x0 ![0, 0, 16384] (res_main_v194 V0) slices_S32x128x16384_S32x128x0_0_0_16384)⟩] concatenates_S32x128x16384_S32x128x0_S32x128x16384_d2
      = fun i => Cert.Haar.haar (Cert.Haar.row3 (V0 (Proc.devRef .tc main_arg0)) (i 0) (i 1)) (i 2).val := by
  funext i
  obtain ⟨b, w, j, rfl⟩ : ∃ b w j, i = ix3 b w j := ⟨_, _, _, eq_ix3 i⟩
  refine (host_level_top (h := 8192) (m := 16384) (t := 0) rfl rfl _ _ _ _ _ _ _ _ (res_main_v194 V0) b w j).trans ?_
  exact lvl_congr (n := 16384) (by norm_num) (row13 V0 b w) j.val j.isLt

end Cert.RefValue

end
-- ==== Proof.lean ====
/-
  The certificate of a fourteen-level inverse Haar synthesis along the last axis of x[32, 128, 16384], computed by one
  kernel over 128 blocks of 32 rows against the same transform written with whole-array slices and concatenations.

  Both programs run, level by level with half-widths 1, 2, 4, …, 8192, the butterflies `(a k + d k) · c` and
  `(a k - d k) · c` on the first `2 h` entries of every row (`a` the first half, `d` the second), interleaved at the
  positions `2 k` and `2 k + 1`, with the same scale `c` (the single-precision number nearest to 1/√2). Over the extended
  reals the two results are the same term entry by entry (`Cert.Haar.haar` of the argument's row): the kernel's side is
  read off its run block by block (one store per level into the block, each read through the stores before it), the
  reference's off its run array by array. No law of arithmetic is needed, and so no use is made of the inputs being
  finite. The idealization rewrote nothing, so that conjunct is trivial; the three frames are the programs' runs with
  the results dropped.
-/
import proofs.«416311_j40870908789396_4_alg».proof.Defs
import proofs.«416311_j40870908789396_4_alg».proof.Proof.Gen.Kernel
import proofs.«416311_j40870908789396_4_alg».proof.Proof.Gen.Kernel.Frame
import proofs.«416311_j40870908789396_4_alg».proof.Proof.Gen.KernelIdeal
import proofs.«416311_j40870908789396_4_alg».proof.Proof.Gen.KernelIdeal.Frame
import proofs.«416311_j40870908789396_4_alg».proof.Proof.Gen.ReferenceIdeal
import proofs.«416311_j40870908789396_4_alg».proof.Proof.Gen.ReferenceIdeal.Run
import proofs.«416311_j40870908789396_4_alg».proof.Proof.Gen.Pre_finite_inputs
import proofs.«416311_j40870908789396_4_alg».proof.Proof.KernelValue
import proofs.«416311_j40870908789396_4_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's run: the result at the transform of every last-axis row of the argument, the argument unchanged. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v208)
          = Cert.KernelIdeal.KValue.rows3Haar
              (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run Cert.ReferenceIdeal.defs _ _).mono
    (fun _ h c => ⟨(h c).1.trans (Cert.RefValue.result_eq (StableHlo.launchContents m' c)), (h c).2⟩)
    (Cert.ReferenceIdeal.Value.run (F := Ideal) m' ρ')

/-- From memories that agree on the argument, both programs end with the result at the transform of every last-axis
    row of the argument. -/
theorem algebraic : Cert.algebraic_KernelIdeal_ReferenceIdeal := by
  intro m ρ m' ρ' _ hagree
  refine ⟨fun c => Cert.KernelIdeal.KValue.rows3Haar
    (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩) (reference_run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
